-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x16 : Shape := ⟨2, ![250000, 16]⟩
abbrev S2x8000000 : Shape := ⟨2, ![2, 8000000]⟩
abbrev S250000 : Shape := ⟨1, ![250000]⟩
abbrev S16x8 : Shape := ⟨2, ![16, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S_ : Shape := ⟨0, ![]⟩

class Facts : Prop where
  bcast_S_S250000x16 : S_.BroadcastsInDim S250000x16 (![] : Fin 0 → Fin S250000x16.rank)
  reducesTo_S250000x16_S_d0_1 : S250000x16.ReducesTo [0, 1] S_
  h_S_ : 0 < S_.numel
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S8 .f32) (main_arg7 : FVec F S8x1 .f32) (main_arg8 : FVec F S1 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg7
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S250000x16 .f32) (main_arg1 : IVec S2x8000000 32) (main_arg2 : IVec S250000 32) (main_arg3 : FVec F S16x8 .f32) (main_arg4 : FVec F S8 .f32) (main_arg5 : FVec F S8x8 .f32) (main_arg6 : FVec F S8 .f32) (main_arg7 : FVec F S8x1 .f32) (main_arg8 : FVec F S1 .f32) : IVec S_ 1 :=
  let main_v0 : FVec F S250000x16 .f32 := Host.absf main_arg0
  let main_cst : FVec F S_ .f32 := constant S_ .f32 0x7F800000#32
  let main_v1 : FVec F S250000x16 .f32 := broadcastInDim S250000x16 ![] bcast_S_S250000x16 main_cst
  let main_v2 : IVec S250000x16 1 := cmpf .olt main_v0 main_v1
  let main_c : IVec S_ 1 := constantI S_ 1 1#1
  let main_v3 : IVec S_ 1 := (fun x v => Host.reduce IntOp.andi x v reducesTo_S250000x16_S_d0_1 h_S_) main_v2 main_c
  let main_v4 : FVec F S16x8 .f32 := Host.absf main_arg3
  let main_cst_0 : FVec F S_ .f32 := constant S_ .f32 0x7F800000#32
  let main_v5 : FVec F S16x8 .f32 := broadcastInDim S16x8 ![] bcast_S_S16x8 main_cst_0
  let main_v6 : IVec S16x8 1 := cmpf .olt main_v4 main_v5
  let main_c_1 : IVec S_ 1 := constantI S_ 1 1#1
  let main_v7 : IVec S_ 1 := (fun x v => Host.reduce IntOp.andi x v reducesTo_S16x8_S_d0_1 h_S_) main_v6 main_c_1
  let main_v8 : IVec S_ 1 := andi main_v3 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg5
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg6 main_arg7 main_arg8 main_v13 main_v16
-- ==== Kernel.lean ====
abbrev S250000x16 : Shape := ⟨2, ![250000, 16]⟩
abbrev S2x8000000 : Shape := ⟨2, ![2, 8000000]⟩
abbrev S250000 : Shape := ⟨1, ![250000]⟩
abbrev S16x8 : Shape := ⟨2, ![16, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x8000000 : Shape := ⟨2, ![1, 8000000]⟩
abbrev S8000000 : Shape := ⟨1, ![8000000]⟩
abbrev S8250000 : Shape := ⟨1, ![8250000]⟩
abbrev S_ : Shape := ⟨0, ![]⟩
abbrev S8250000x1 : Shape := ⟨2, ![8250000, 1]⟩
abbrev S250000x8 : Shape := ⟨2, ![250000, 8]⟩
abbrev S2000x16 : Shape := ⟨2, ![2000, 16]⟩
abbrev S2000x8 : Shape := ⟨2, ![2000, 8]⟩
abbrev S8250000x8 : Shape := ⟨2, ![8250000, 8]⟩
abbrev S1x8 : Shape := ⟨2, ![1, 8]⟩
abbrev S250000x1 : Shape := ⟨2, ![250000, 1]⟩
abbrev S512x8 : Shape := ⟨2, ![512, 8]⟩
abbrev S2000x1 : Shape := ⟨2, ![2000, 1]⟩
abbrev S2000x512 : Shape := ⟨2, ![2000, 512]⟩
abbrev S1x1 : Shape := ⟨2, ![1, 1]⟩
abbrev S512x1 : Shape := ⟨2, ![512, 1]⟩

abbrev nBuf : Space → Nat
  | .hbm => 94
  | .vmem => 29
  | .smem => 0
  | _ => 0

abbrev bufTy : (tb : Table) → Fin (tcTables nBuf tb) → BufTy
  | .hbm, ⟨0, _⟩ => ⟨S250000x16, .f32⟩
  | .hbm, ⟨1, _⟩ => ⟨S2x8000000, .i32⟩
  | .hbm, ⟨2, _⟩ => ⟨S250000, .i32⟩
  | .hbm, ⟨3, _⟩ => ⟨S16x8, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S250000, .i32⟩
  | .hbm, ⟨10, _⟩ => ⟨S1x8000000, .i32⟩
  | .hbm, ⟨11, _⟩ => ⟨S8000000, .i32⟩
  | .hbm, ⟨12, _⟩ => ⟨S8250000, .i32⟩
  | .hbm, ⟨13, _⟩ => ⟨S1x8000000, .i32⟩
  | .hbm, ⟨14, _⟩ => ⟨S8000000, .i32⟩
  | .hbm, ⟨15, _⟩ => ⟨S8250000, .i32⟩
  | .hbm, ⟨16, _⟩ => ⟨S_, .f32⟩
  | .hbm, ⟨17, _⟩ => ⟨S8250000, .f32⟩
  | .hbm, ⟨18, _⟩ => ⟨S_, .f32⟩
  | .hbm, ⟨19, _⟩ => ⟨S250000, .f32⟩
  | .hbm, ⟨20, _⟩ => ⟨S8250000x1, .i32⟩
  | .hbm, ⟨21, _⟩ => ⟨S250000, .f32⟩
  | .hbm, ⟨22, _⟩ => ⟨S_, .f32⟩
  | .hbm, ⟨23, _⟩ => ⟨S250000, .f32⟩
  | .hbm, ⟨24, _⟩ => ⟨S250000, .i1⟩
  | .hbm, ⟨25, _⟩ => ⟨S_, .f32⟩
  | .hbm, ⟨26, _⟩ => ⟨S250000, .f32⟩
  | .hbm, ⟨27, _⟩ => ⟨S250000, .f32⟩
  | .hbm, ⟨28, _⟩ => ⟨S250000, .f32⟩
  | .hbm, ⟨29, _⟩ => ⟨S_, .f32⟩
  | .hbm, ⟨30, _⟩ => ⟨S_, .f32⟩
  | .hbm, ⟨31, _⟩ => ⟨S250000, .f32⟩
  | .hbm, ⟨32, _⟩ => ⟨S250000, .f32⟩
  | .hbm, ⟨33, _⟩ => ⟨S_, .i32⟩
  | .hbm, ⟨34, _⟩ => ⟨S8250000, .i32⟩
  | .hbm, ⟨35, _⟩ => ⟨S8250000, .i1⟩
  | .hbm, ⟨36, _⟩ => ⟨S_, .i32⟩
  | .hbm, ⟨37, _⟩ => ⟨S8250000, .i32⟩
  | .hbm, ⟨38, _⟩ => ⟨S8250000, .i32⟩
  | .hbm, ⟨39, _⟩ => ⟨S8250000, .i32⟩
  | .hbm, ⟨40, _⟩ => ⟨S8250000x1, .i32⟩
  | .hbm, ⟨41, _⟩ => ⟨S8250000, .f32⟩
  | .hbm, ⟨42, _⟩ => ⟨S_, .i32⟩
  | .hbm, ⟨43, _⟩ => ⟨S8250000, .i32⟩
  | .hbm, ⟨44, _⟩ => ⟨S8250000, .i1⟩
  | .hbm, ⟨45, _⟩ => ⟨S_, .i32⟩
  | .hbm, ⟨46, _⟩ => ⟨S8250000, .i32⟩
  | .hbm, ⟨47, _⟩ => ⟨S8250000, .i32⟩
  | .hbm, ⟨48, _⟩ => ⟨S8250000, .i32⟩
  | .hbm, ⟨49, _⟩ => ⟨S8250000x1, .i32⟩
  | .hbm, ⟨50, _⟩ => ⟨S8250000, .f32⟩
  | .hbm, ⟨51, _⟩ => ⟨S8250000, .f32⟩
  | .hbm, ⟨52, _⟩ => ⟨S250000x8, .f32⟩
  | .hbm, ⟨53, _⟩ => ⟨S_, .i32⟩
  | .hbm, ⟨54, _⟩ => ⟨S8250000, .i32⟩
  | .hbm, ⟨55, _⟩ => ⟨S8250000, .i1⟩
  | .hbm, ⟨56, _⟩ => ⟨S_, .i32⟩
  | .hbm, ⟨57, _⟩ => ⟨S8250000, .i32⟩
  | .hbm, ⟨58, _⟩ => ⟨S8250000, .i32⟩
  | .hbm, ⟨59, _⟩ => ⟨S8250000, .i32⟩
  | .hbm, ⟨60, _⟩ => ⟨S8250000x1, .i32⟩
  | .hbm, ⟨61, _⟩ => ⟨S8250000x8, .f32⟩
  | .hbm, ⟨62, _⟩ => ⟨S8250000x1, .f32⟩
  | .hbm, ⟨63, _⟩ => ⟨S8250000x8, .f32⟩
  | .hbm, ⟨64, _⟩ => ⟨S8250000x8, .f32⟩
  | .hbm, ⟨65, _⟩ => ⟨S_, .f32⟩
  | .hbm, ⟨66, _⟩ => ⟨S250000x8, .f32⟩
  | .hbm, ⟨67, _⟩ => ⟨S8250000x1, .i32⟩
  | .hbm, ⟨68, _⟩ => ⟨S250000x8, .f32⟩
  | .hbm, ⟨69, _⟩ => ⟨S1x8, .f32⟩
  | .hbm, ⟨70, _⟩ => ⟨S250000x8, .f32⟩
  | .hbm, ⟨71, _⟩ => ⟨S250000x8, .f32⟩
  | .hbm, ⟨72, _⟩ => ⟨S_, .i32⟩
  | .hbm, ⟨73, _⟩ => ⟨S8250000, .i32⟩
  | .hbm, ⟨74, _⟩ => ⟨S8250000, .i1⟩
  | .hbm, ⟨75, _⟩ => ⟨S_, .i32⟩
  | .hbm, ⟨76, _⟩ => ⟨S8250000, .i32⟩
  | .hbm, ⟨77, _⟩ => ⟨S8250000, .i32⟩
  | .hbm, ⟨78, _⟩ => ⟨S8250000, .i32⟩
  | .hbm, ⟨79, _⟩ => ⟨S8250000x1, .i32⟩
  | .hbm, ⟨80, _⟩ => ⟨S8250000x8, .f32⟩
  | .hbm, ⟨81, _⟩ => ⟨S8250000x1, .f32⟩
  | .hbm, ⟨82, _⟩ => ⟨S8250000x8, .f32⟩
  | .hbm, ⟨83, _⟩ => ⟨S8250000x8, .f32⟩
  | .hbm, ⟨84, _⟩ => ⟨S_, .f32⟩
  | .hbm, ⟨85, _⟩ => ⟨S250000x8, .f32⟩
  | .hbm, ⟨86, _⟩ => ⟨S8250000x1, .i32⟩
  | .hbm, ⟨87, _⟩ => ⟨S250000x8, .f32⟩
  | .hbm, ⟨88, _⟩ => ⟨S1x8, .f32⟩
  | .hbm, ⟨89, _⟩ => ⟨S250000x8, .f32⟩
  | .hbm, ⟨90, _⟩ => ⟨S250000x1, .i32⟩
  | .hbm, ⟨91, _⟩ => ⟨S512x8, .f32⟩
  | .hbm, ⟨92, _⟩ => ⟨S1x1, .f32⟩
  | .hbm, ⟨93, _⟩ => ⟨S512x1, .f32⟩
  | .local _ .vmem, ⟨0, _⟩ => ⟨S2000x16, .f32⟩
  | .local _ .vmem, ⟨1, _⟩ => ⟨S2000x16, .f32⟩
  | .local _ .vmem, ⟨2, _⟩ => ⟨S16x8, .f32⟩
  | .local _ .vmem, ⟨3, _⟩ => ⟨S2000x8, .f32⟩
  | .local _ .vmem, ⟨4, _⟩ => ⟨S2000x8, .f32⟩
  | .local _ .vmem, ⟨5, _⟩ => ⟨S2000x8, .f32⟩
  | .local _ .vmem, ⟨6, _⟩ => ⟨S2000x8, .f32⟩
  | .local _ .vmem, ⟨7, _⟩ => ⟨S1x8, .f32⟩
  | .local _ .vmem, ⟨8, _⟩ => ⟨S2000x8, .f32⟩
  | .local _ .vmem, ⟨9, _⟩ => ⟨S2000x8, .f32⟩
  | .local _ .vmem, ⟨10, _⟩ => ⟨S2000x8, .f32⟩
  | .local _ .vmem, ⟨11, _⟩ => ⟨S2000x8, .f32⟩
  | .local _ .vmem, ⟨12, _⟩ => ⟨S8x8, .f32⟩
  | .local _ .vmem, ⟨13, _⟩ => ⟨S2000x8, .f32⟩
  | .local _ .vmem, ⟨14, _⟩ => ⟨S2000x8, .f32⟩
  | .local _ .vmem, ⟨15, _⟩ => ⟨S2000x8, .f32⟩
  | .local _ .vmem, ⟨16, _⟩ => ⟨S2000x8, .f32⟩
  | .local _ .vmem, ⟨17, _⟩ => ⟨S1x8, .f32⟩
  | .local _ .vmem, ⟨18, _⟩ => ⟨S2000x8, .f32⟩
  | .local _ .vmem, ⟨19, _⟩ => ⟨S2000x8, .f32⟩
  | .local _ .vmem, ⟨20, _⟩ => ⟨S2000x1, .i32⟩
  | .local _ .vmem, ⟨21, _⟩ => ⟨S2000x1, .i32⟩
  | .local _ .vmem, ⟨22, _⟩ => ⟨S2000x8, .f32⟩
  | .local _ .vmem, ⟨23, _⟩ => ⟨S2000x8, .f32⟩
  | .local _ .vmem, ⟨24, _⟩ => ⟨S512x8, .f32⟩
  | .local _ .vmem, ⟨25, _⟩ => ⟨S512x8, .f32⟩
  | .local _ .vmem, ⟨26, _⟩ => ⟨S8x1, .f32⟩
  | .local _ .vmem, ⟨27, _⟩ => ⟨S1x1, .f32⟩
  | .local _ .vmem, ⟨28, _⟩ => ⟨S512x1, .f32⟩
  | _, _ => ⟨S250000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem1_0 : DmaSem sig := 26
abbrev cc5_sem2_0 : DmaSem sig := 27
abbrev cc5_sem3_0 : DmaSem sig := 28

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x8 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x8 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S8x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x8000000_S1x8000000_0_0 : S2x8000000.Slices ![0, 0] S1x8000000
  shapeCasts_S1x8000000_S8000000 : S1x8000000.ShapeCasts S8000000
  concatenates_S8000000_S250000_S8250000_d0 : Shape.Concatenates [S8000000, S250000] S8250000 0
  slices_S2x8000000_S1x8000000_1_0 : S2x8000000.Slices ![1, 0] S1x8000000
  bcast_S_S8250000 : S_.BroadcastsInDim S8250000 (![] : Fin 0 → Fin S8250000.rank)
  bcast_S_S250000 : S_.BroadcastsInDim S250000 (![] : Fin 0 → Fin S250000.rank)
  bcast_S8250000_S8250000x1_0 : S8250000.BroadcastsInDim S8250000x1 (![0] : Fin 1 → Fin S8250000x1.rank)
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S16x8_S16x8_0_0 : ∀ a, (![0, 0] : Fin 2 → Nat) a + S16x8.size a ≤ S16x8.size a
  h_S16x8 : 0 < S16x8.numel
  inb_S2000x8_S2000x8_0_0 : ∀ a, (![0, 0] : Fin 2 → Nat) a + S2000x8.size a ≤ S2000x8.size a
  h_S2000x8 : 0 < S2000x8.numel
  bcast_S8250000x1_S8250000x8_0_1 : S8250000x1.BroadcastsInDim S8250000x8 (![0, 1] : Fin 2 → Fin S8250000x8.rank)
  bcast_S_S250000x8 : S_.BroadcastsInDim S250000x8 (![] : Fin 0 → Fin S250000x8.rank)
  shapeCasts_S8_S1x8 : S8.ShapeCasts S1x8
  shapeCasts_S2000x8_S2000x8 : S2000x8.ShapeCasts S2000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S8x8_S8x8_0_0 : ∀ a, (![0, 0] : Fin 2 → Nat) a + S8x8.size a ≤ S8x8.size a
  h_S8x8 : 0 < S8x8.numel
  shapeCasts_S250000_S250000x1 : S250000.ShapeCasts S250000x1
  inb_S512x8_S512x8_0_0 : ∀ a, (![0, 0] : Fin 2 → Nat) a + S512x8.size a ≤ S512x8.size a
  h_S512x8 : 0 < S512x8.numel
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  natLt_1_32 : 1 < 32
  shapeCasts_S512x8_S512x8 : S512x8.ShapeCasts S512x8
  shapeCasts_S1_S1x1 : S1.ShapeCasts S1x1
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S250000_S8250000x1_S8250000_n_0_0_1_wf : ScatterDims.WF S250000 S8250000x1 S8250000 [] [0] [0] 1
  gather_S250000_S8250000x1_S8250000_n_0_n_n_0_1_1_wf : GatherDims.WF S250000 S8250000x1 S8250000 [] [0] [] [0] [] 1 ![1]
  dot_S2000x16_S16x8_S2000x8_1_0_0_1_n_n_wf : DotDims.WF S2000x16 S16x8 S2000x8 [1] [0] [0] [1] [] []
  gather_S250000x8_S8250000x1_S8250000x8_1_0_n_n_0_1_18_wf : GatherDims.WF S250000x8 S8250000x1 S8250000x8 [1] [0] [] [0] [] 1 ![1, 8]
  scatter_S250000x8_S8250000x1_S8250000x8_1_0_0_1_wf : ScatterDims.WF S250000x8 S8250000x1 S8250000x8 [1] [0] [0] 1
  dot_S2000x8_S8x8_S2000x8_1_0_0_1_n_n_wf : DotDims.WF S2000x8 S8x8 S2000x8 [1] [0] [0] [1] [] []
  dot_S2000x512_S2000x8_S512x8_0_0_1_1_n_n_wf : DotDims.WF S2000x512 S2000x8 S512x8 [0] [0] [1] [1] [] []
  dot_S512x8_S8x1_S512x1_1_0_0_1_n_n_wf : DotDims.WF S512x8 S8x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S250000x16.size a
  hwx0_0 : ∀ i : grid0.Coords, EltTy.bits .f32 = 32 ∨ (Rect.block (s := S250000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S16x8.size a
  hwx0_1 : ∀ i : grid0.Coords, EltTy.bits .f32 = 32 ∨ (Rect.block (s := S16x8) S16x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x8.size a ≤ S250000x8.size a
  hwx0_2 : ∀ i : grid0.Coords, EltTy.bits .f32 = 32 ∨ (Rect.block (s := S250000x8) S2000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x8.size a ≤ S250000x8.size a
  hwx1_0 : ∀ i : grid1.Coords, EltTy.bits .f32 = 32 ∨ (Rect.block (s := S250000x8) S2000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8.size a ≤ S1x8.size a
  hwx1_1 : ∀ i : grid1.Coords, EltTy.bits .f32 = 32 ∨ (Rect.block (s := S1x8) S1x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x8.size a ≤ S250000x8.size a
  hwx1_2 : ∀ i : grid1.Coords, EltTy.bits .f32 = 32 ∨ (Rect.block (s := S250000x8) S2000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x8.size a ≤ S250000x8.size a
  hwx2_0 : ∀ i : grid2.Coords, EltTy.bits .f32 = 32 ∨ (Rect.block (s := S250000x8) S2000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x8.size a ≤ S8x8.size a
  hwx2_1 : ∀ i : grid2.Coords, EltTy.bits .f32 = 32 ∨ (Rect.block (s := S8x8) S8x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x8.size a ≤ S250000x8.size a
  hwx2_2 : ∀ i : grid2.Coords, EltTy.bits .f32 = 32 ∨ (Rect.block (s := S250000x8) S2000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x8.size a ≤ S250000x8.size a
  hwx3_0 : ∀ i : grid3.Coords, EltTy.bits .f32 = 32 ∨ (Rect.block (s := S250000x8) S2000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x8.size a ≤ S250000x8.size a
  hwx3_2 : ∀ i : grid3.Coords, EltTy.bits .f32 = 32 ∨ (Rect.block (s := S250000x8) S2000x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S250000x1.size a
  hwx4_0 : ∀ i : grid4.Coords, EltTy.bits .i32 = 32 ∨ (Rect.block (s := S250000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x8.size a ≤ S250000x8.size a
  hwx4_1 : ∀ i : grid4.Coords, EltTy.bits .f32 = 32 ∨ (Rect.block (s := S250000x8) S2000x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x8.size a ≤ S512x8.size a
  hwx4_2 : ∀ i : grid4.Coords, EltTy.bits .f32 = 32 ∨ (Rect.block (s := S512x8) S512x8.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x8.size a ≤ S512x8.size a
  hwx5_0 : ∀ i : grid5.Coords, EltTy.bits .f32 = 32 ∨ (Rect.block (s := S512x8) S512x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8x1.size a ≤ S8x1.size a
  hwx5_1 : ∀ i : grid5.Coords, EltTy.bits .f32 = 32 ∨ (Rect.block (s := S8x1) S8x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S512x1.size a ≤ S512x1.size a
  hwx5_3 : ∀ i : grid5.Coords, EltTy.bits .f32 = 32 ∨ (Rect.block (s := S512x1) S512x1.size (cc5_transform_3 i) (hinb5_3 i)).WholeWords (EltTy.packing .f32)

variable [Facts₀]

def scatter_S250000_S8250000x1_S8250000_n_0_0_1 : ScatterDims S250000 S8250000x1 S8250000 where
  updateWindowDims := []
  insertedWindowDims := [0]
  scatterDimsToOperandDims := [0]
  indexVectorDim := 1
  wf := scatter_S250000_S8250000x1_S8250000_n_0_0_1_wf
def gather_S250000_S8250000x1_S8250000_n_0_n_n_0_1_1 : GatherDims S250000 S8250000x1 S8250000 where
  offsetDims := []
  collapsedSliceDims := [0]
  operandBatchingDims := []
  startIndicesBatchingDims := []
  startIndexMap := [0]
  indexVectorDim := 1
  sliceSizes := ![1]
  wf := gather_S250000_S8250000x1_S8250000_n_0_n_n_0_1_1_wf
def dot_S2000x16_S16x8_S2000x8_1_0_0_1_n_n : DotDims S2000x16 S16x8 S2000x8 where
  lhsContracting := [1]
  rhsContracting := [0]
  lhsNonContracting := [0]
  rhsNonContracting := [1]
  lhsBatch := []
  rhsBatch := []
  wf := dot_S2000x16_S16x8_S2000x8_1_0_0_1_n_n_wf
def gather_S250000x8_S8250000x1_S8250000x8_1_0_n_n_0_1_18 : GatherDims S250000x8 S8250000x1 S8250000x8 where
  offsetDims := [1]
  collapsedSliceDims := [0]
  operandBatchingDims := []
  startIndicesBatchingDims := []
  startIndexMap := [0]
  indexVectorDim := 1
  sliceSizes := ![1, 8]
  wf := gather_S250000x8_S8250000x1_S8250000x8_1_0_n_n_0_1_18_wf
def scatter_S250000x8_S8250000x1_S8250000x8_1_0_0_1 : ScatterDims S250000x8 S8250000x1 S8250000x8 where
  updateWindowDims := [1]
  insertedWindowDims := [0]
  scatterDimsToOperandDims := [0]
  indexVectorDim := 1
  wf := scatter_S250000x8_S8250000x1_S8250000x8_1_0_0_1_wf
def dot_S2000x8_S8x8_S2000x8_1_0_0_1_n_n : DotDims S2000x8 S8x8 S2000x8 where
  lhsContracting := [1]
  rhsContracting := [0]
  lhsNonContracting := [0]
  rhsNonContracting := [1]
  lhsBatch := []
  rhsBatch := []
  wf := dot_S2000x8_S8x8_S2000x8_1_0_0_1_n_n_wf
def dot_S2000x512_S2000x8_S512x8_0_0_1_1_n_n : DotDims S2000x512 S2000x8 S512x8 where
  lhsContracting := [0]
  rhsContracting := [0]
  lhsNonContracting := [1]
  rhsNonContracting := [1]
  lhsBatch := []
  rhsBatch := []
  wf := dot_S2000x512_S2000x8_S512x8_0_0_1_1_n_n_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S8x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S2000x8.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S512x8.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v65) S512x8.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S8x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S512x1.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S250000x16 : Shape := ⟨2, ![250000, 16]⟩
abbrev S2x8000000 : Shape := ⟨2, ![2, 8000000]⟩
abbrev S250000 : Shape := ⟨1, ![250000]⟩
abbrev S16x8 : Shape := ⟨2, ![16, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x8000000 : Shape := ⟨2, ![1, 8000000]⟩
abbrev S8000000 : Shape := ⟨1, ![8000000]⟩
abbrev S8250000 : Shape := ⟨1, ![8250000]⟩
abbrev S_ : Shape := ⟨0, ![]⟩
abbrev S8250000x1 : Shape := ⟨2, ![8250000, 1]⟩
abbrev S250000x8 : Shape := ⟨2, ![250000, 8]⟩
abbrev S8250000x8 : Shape := ⟨2, ![8250000, 8]⟩
abbrev S1x8 : Shape := ⟨2, ![1, 8]⟩
abbrev S512x8 : Shape := ⟨2, ![512, 8]⟩
abbrev S250000x1 : Shape := ⟨2, ![250000, 1]⟩
abbrev S512x1 : Shape := ⟨2, ![512, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S250000x16, .f32⟩
  | 1 => ⟨S2x8000000, .i32⟩
  | 2 => ⟨S250000, .i32⟩
  | 3 => ⟨S16x8, .f32⟩
  | 4 => ⟨S8, .f32⟩
  | 5 => ⟨S8x8, .f32⟩
  | 6 => ⟨S8, .f32⟩
  | 7 => ⟨S8x1, .f32⟩
  | 8 => ⟨S1, .f32⟩
  | 9 => ⟨S250000, .i32⟩
  | 10 => ⟨S1x8000000, .i32⟩
  | 11 => ⟨S8000000, .i32⟩
  | 12 => ⟨S8250000, .i32⟩
  | 13 => ⟨S1x8000000, .i32⟩
  | 14 => ⟨S8000000, .i32⟩
  | 15 => ⟨S8250000, .i32⟩
  | 16 => ⟨S_, .f32⟩
  | 17 => ⟨S8250000, .f32⟩
  | 18 => ⟨S_, .f32⟩
  | 19 => ⟨S250000, .f32⟩
  | 20 => ⟨S8250000x1, .i32⟩
  | 21 => ⟨S250000, .f32⟩
  | 22 => ⟨S_, .f32⟩
  | 23 => ⟨S250000, .f32⟩
  | 24 => ⟨S250000, .i1⟩
  | 25 => ⟨S_, .f32⟩
  | 26 => ⟨S250000, .f32⟩
  | 27 => ⟨S250000, .f32⟩
  | 28 => ⟨S250000, .f32⟩
  | 29 => ⟨S_, .f32⟩
  | 30 => ⟨S_, .f32⟩
  | 31 => ⟨S250000, .f32⟩
  | 32 => ⟨S250000, .f32⟩
  | 33 => ⟨S250000x8, .f32⟩
  | 34 => ⟨S_, .i32⟩
  | 35 => ⟨S8250000, .i32⟩
  | 36 => ⟨S8250000, .i1⟩
  | 37 => ⟨S_, .i32⟩
  | 38 => ⟨S8250000, .i32⟩
  | 39 => ⟨S8250000, .i32⟩
  | 40 => ⟨S8250000, .i32⟩
  | 41 => ⟨S8250000x1, .i32⟩
  | 42 => ⟨S8250000, .f32⟩
  | 43 => ⟨S_, .i32⟩
  | 44 => ⟨S8250000, .i32⟩
  | 45 => ⟨S8250000, .i1⟩
  | 46 => ⟨S_, .i32⟩
  | 47 => ⟨S8250000, .i32⟩
  | 48 => ⟨S8250000, .i32⟩
  | 49 => ⟨S8250000, .i32⟩
  | 50 => ⟨S8250000x1, .i32⟩
  | 51 => ⟨S8250000, .f32⟩
  | 52 => ⟨S8250000, .f32⟩
  | 53 => ⟨S_, .i32⟩
  | 54 => ⟨S8250000, .i32⟩
  | 55 => ⟨S8250000, .i1⟩
  | 56 => ⟨S_, .i32⟩
  | 57 => ⟨S8250000, .i32⟩
  | 58 => ⟨S8250000, .i32⟩
  | 59 => ⟨S8250000, .i32⟩
  | 60 => ⟨S8250000x1, .i32⟩
  | 61 => ⟨S8250000x8, .f32⟩
  | 62 => ⟨S8250000x1, .f32⟩
  | 63 => ⟨S8250000x8, .f32⟩
  | 64 => ⟨S8250000x8, .f32⟩
  | 65 => ⟨S_, .f32⟩
  | 66 => ⟨S250000x8, .f32⟩
  | 67 => ⟨S8250000x1, .i32⟩
  | 68 => ⟨S250000x8, .f32⟩
  | 69 => ⟨S1x8, .f32⟩
  | 70 => ⟨S250000x8, .f32⟩
  | 71 => ⟨S250000x8, .f32⟩
  | 72 => ⟨S_, .f32⟩
  | 73 => ⟨S250000x8, .f32⟩
  | 74 => ⟨S250000x8, .f32⟩
  | 75 => ⟨S250000x8, .f32⟩
  | 76 => ⟨S_, .i32⟩
  | 77 => ⟨S8250000, .i32⟩
  | 78 => ⟨S8250000, .i1⟩
  | 79 => ⟨S_, .i32⟩
  | 80 => ⟨S8250000, .i32⟩
  | 81 => ⟨S8250000, .i32⟩
  | 82 => ⟨S8250000, .i32⟩
  | 83 => ⟨S8250000x1, .i32⟩
  | 84 => ⟨S8250000, .f32⟩
  | 85 => ⟨S_, .i32⟩
  | 86 => ⟨S8250000, .i32⟩
  | 87 => ⟨S8250000, .i1⟩
  | 88 => ⟨S_, .i32⟩
  | 89 => ⟨S8250000, .i32⟩
  | 90 => ⟨S8250000, .i32⟩
  | 91 => ⟨S8250000, .i32⟩
  | 92 => ⟨S8250000x1, .i32⟩
  | 93 => ⟨S8250000, .f32⟩
  | 94 => ⟨S8250000, .f32⟩
  | 95 => ⟨S_, .i32⟩
  | 96 => ⟨S8250000, .i32⟩
  | 97 => ⟨S8250000, .i1⟩
  | 98 => ⟨S_, .i32⟩
  | 99 => ⟨S8250000, .i32⟩
  | 100 => ⟨S8250000, .i32⟩
  | 101 => ⟨S8250000, .i32⟩
  | 102 => ⟨S8250000x1, .i32⟩
  | 103 => ⟨S8250000x8, .f32⟩
  | 104 => ⟨S8250000x1, .f32⟩
  | 105 => ⟨S8250000x8, .f32⟩
  | 106 => ⟨S8250000x8, .f32⟩
  | 107 => ⟨S_, .f32⟩
  | 108 => ⟨S250000x8, .f32⟩
  | 109 => ⟨S8250000x1, .i32⟩
  | 110 => ⟨S250000x8, .f32⟩
  | 111 => ⟨S1x8, .f32⟩
  | 112 => ⟨S250000x8, .f32⟩
  | 113 => ⟨S250000x8, .f32⟩
  | 114 => ⟨S_, .f32⟩
  | 115 => ⟨S250000x8, .f32⟩
  | 116 => ⟨S250000x8, .f32⟩
  | 117 => ⟨S_, .f32⟩
  | 118 => ⟨S512x8, .f32⟩
  | 119 => ⟨S250000x1, .i32⟩
  | 120 => ⟨S512x8, .f32⟩
  | 121 => ⟨S512x1, .f32⟩
  | 122 => ⟨S1x1, .f32⟩
  | 123 => ⟨S512x1, .f32⟩
  | 124 => ⟨S512x1, .f32⟩
  | 125 => ⟨S512x1, .f32⟩
  | 126 => ⟨S512x1, .f32⟩
  | 127 => ⟨S_, .f32⟩
  | _ => ⟨S250000x16, .f32⟩

abbrev hbmTy0_1 (i : Nat) : BufTy := match i % 128 with
  | 0 => ⟨S512x1, .f32⟩
  | 1 => ⟨S512x1, .f32⟩
  | 2 => ⟨S_, .f32⟩
  | 3 => ⟨S512x1, .f32⟩
  | 4 => ⟨S512x1, .f32⟩
  | _ => ⟨S250000x16, .f32⟩

abbrev hbmTy (i : Nat) : BufTy := match i / 128 with
  | 0 => hbmTy0_0 i
  | 1 => hbmTy0_1 i
  | _ => ⟨S250000x16, .f32⟩

abbrev bufTy : (tb : Table) → Fin (tcTables nBuf tb) → BufTy
  | .hbm, ⟨i, _⟩ => hbmTy i
  | _, _ => ⟨S250000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_18 : Ref sig .tc := ⟨.hbm, 127, rfl⟩
abbrev main_v92 : Ref sig .tc := ⟨.hbm, 128, rfl⟩
abbrev main_v93 : Ref sig .tc := ⟨.hbm, 129, rfl⟩
abbrev main_cst_19 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  concatenates_S8000000_S250000_S8250000_d0 : Shape.Concatenates [S8000000, S250000] S8250000 0
  slices_S2x8000000_S1x8000000_1_0 : S2x8000000.Slices ![1, 0] S1x8000000
  bcast_S_S8250000 : S_.BroadcastsInDim S8250000 (![] : Fin 0 → Fin S8250000.rank)
  bcast_S_S250000 : S_.BroadcastsInDim S250000 (![] : Fin 0 → Fin S250000.rank)
  bcast_S8250000_S8250000x1_0 : S8250000.BroadcastsInDim S8250000x1 (![0] : Fin 1 → Fin S8250000x1.rank)
  bcast_S8250000x1_S8250000x8_0_1 : S8250000x1.BroadcastsInDim S8250000x8 (![0, 1] : Fin 2 → Fin S8250000x8.rank)
  bcast_S_S250000x8 : S_.BroadcastsInDim S250000x8 (![] : Fin 0 → Fin S250000x8.rank)
  bcast_S8_S1x8_1 : S8.BroadcastsInDim S1x8 (![1] : Fin 1 → Fin S1x8.rank)
  bcast_S1x8_S250000x8_0_1 : S1x8.BroadcastsInDim S250000x8 (![0, 1] : Fin 2 → Fin S250000x8.rank)
  bcast_S_S512x8 : S_.BroadcastsInDim S512x8 (![] : Fin 0 → Fin S512x8.rank)
  bcast_S250000_S250000x1_0 : S250000.BroadcastsInDim S250000x1 (![0] : Fin 1 → Fin S250000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  scatter_S250000_S8250000x1_S8250000_n_0_0_1_wf : ScatterDims.WF S250000 S8250000x1 S8250000 [] [0] [0] 1
  dot_S250000x16_S16x8_S250000x8_1_0_0_1_n_n_wf : DotDims.WF S250000x16 S16x8 S250000x8 [1] [0] [0] [1] [] []
  gather_S250000_S8250000x1_S8250000_n_0_n_n_0_1_1_wf : GatherDims.WF S250000 S8250000x1 S8250000 [] [0] [] [0] [] 1 ![1]
  gather_S250000x8_S8250000x1_S8250000x8_1_0_n_n_0_1_18_wf : GatherDims.WF S250000x8 S8250000x1 S8250000x8 [1] [0] [] [0] [] 1 ![1, 8]
  scatter_S250000x8_S8250000x1_S8250000x8_1_0_0_1_wf : ScatterDims.WF S250000x8 S8250000x1 S8250000x8 [1] [0] [0] 1
  dot_S250000x8_S8x8_S250000x8_1_0_0_1_n_n_wf : DotDims.WF S250000x8 S8x8 S250000x8 [1] [0] [0] [1] [] []
  scatter_S512x8_S250000x1_S250000x8_1_0_0_1_wf : ScatterDims.WF S512x8 S250000x1 S250000x8 [1] [0] [0] 1
  dot_S512x8_S8x1_S512x1_1_0_0_1_n_n_wf : DotDims.WF S512x8 S8x1 S512x1 [1] [0] [0] [1] [] []

variable [Facts₀]

def scatter_S250000_S8250000x1_S8250000_n_0_0_1 : ScatterDims S250000 S8250000x1 S8250000 where
  updateWindowDims := []
  insertedWindowDims := [0]
  scatterDimsToOperandDims := [0]
  indexVectorDim := 1
  wf := scatter_S250000_S8250000x1_S8250000_n_0_0_1_wf
def dot_S250000x16_S16x8_S250000x8_1_0_0_1_n_n : DotDims S250000x16 S16x8 S250000x8 where
  lhsContracting := [1]
  rhsContracting := [0]
  lhsNonContracting := [0]
  rhsNonContracting := [1]
  lhsBatch := []
  rhsBatch := []
  wf := dot_S250000x16_S16x8_S250000x8_1_0_0_1_n_n_wf
def gather_S250000_S8250000x1_S8250000_n_0_n_n_0_1_1 : GatherDims S250000 S8250000x1 S8250000 where
  offsetDims := []
  collapsedSliceDims := [0]
  operandBatchingDims := []
  startIndicesBatchingDims := []
  startIndexMap := [0]
  indexVectorDim := 1
  sliceSizes := ![1]
  wf := gather_S250000_S8250000x1_S8250000_n_0_n_n_0_1_1_wf
def gather_S250000x8_S8250000x1_S8250000x8_1_0_n_n_0_1_18 : GatherDims S250000x8 S8250000x1 S8250000x8 where
  offsetDims := [1]
  collapsedSliceDims := [0]
  operandBatchingDims := []
  startIndicesBatchingDims := []
  startIndexMap := [0]
  indexVectorDim := 1
  sliceSizes := ![1, 8]
  wf := gather_S250000x8_S8250000x1_S8250000x8_1_0_n_n_0_1_18_wf
def scatter_S250000x8_S8250000x1_S8250000x8_1_0_0_1 : ScatterDims S250000x8 S8250000x1 S8250000x8 where
  updateWindowDims := [1]
  insertedWindowDims := [0]
  scatterDimsToOperandDims := [0]
  indexVectorDim := 1
  wf := scatter_S250000x8_S8250000x1_S8250000x8_1_0_0_1_wf
def dot_S250000x8_S8x8_S250000x8_1_0_0_1_n_n : DotDims S250000x8 S8x8 S250000x8 where
  lhsContracting := [1]
  rhsContracting := [0]
  lhsNonContracting := [0]
  rhsNonContracting := [1]
  lhsBatch := []
  rhsBatch := []
  wf := dot_S250000x8_S8x8_S250000x8_1_0_0_1_n_n_wf
def scatter_S512x8_S250000x1_S250000x8_1_0_0_1 : ScatterDims S512x8 S250000x1 S250000x8 where
  updateWindowDims := [1]
  insertedWindowDims := [0]
  scatterDimsToOperandDims := [0]
  indexVectorDim := 1
  wf := scatter_S512x8_S250000x1_S250000x8_1_0_0_1_wf
def dot_S512x8_S8x1_S512x1_1_0_0_1_n_n : DotDims S512x8 S8x1 S512x1 where
  lhsContracting := [1]
  rhsContracting := [0]
  lhsNonContracting := [0]
  rhsNonContracting := [1]
  lhsBatch := []
  rhsBatch := []
  wf := dot_S512x8_S8x1_S512x1_1_0_0_1_n_n_wf

class Facts : Prop extends Facts₀ where

variable [Facts]
-- ==== Proof.Spec.lean ====
/-
  The four array functions the graph network is made of, on extended reals, index by index.

  A layer of the network is: rows times a weight matrix; the sparse aggregation over the edges (the same
  host operations in both programs, never opened here); bias plus ReLU. Then graph pooling: the rows
  of one graph id summed; then a linear head and the logistic function.

  * `rowsMul x w` at (r, c) is ∑ₖ x[r, k] · w[k, c].
  * `biasRelu a b` at (r, c) is max (a[r, c] + b[0, c]) z, with z the value of the all-zero f32 word
    (kept as the word, which both programs spell the same way).
  * `poolRows ids h` at (g, c) is the sum over the rows n whose id word, read as a signed integer, is g,
    of h[n, c]: a row whose id is outside [0, G) contributes to no graph.
  * `headLogistic p w b` at (g, 0) is logistic (∑ₖ p[g, k] · w[k, 0] + b[0, 0]).
-/
import Idealize.ShloMosaic.PureOps.Ideal
import Idealize.ShloMosaic.Lib.ValueIdx

noncomputable section

open scoped BigOperators

namespace Cert.Spec

open Idealize.ShloMosaic Idealize.ShloMosaic.ValueIdx

/-- Rows times a matrix: entry (r, c) is ∑ₖ x[r, k] · w[k, c]. -/
def rowsMul {N K C : Nat} (x : (⟨2, ![N, K]⟩ : Shape).Idx → EReal) (w : (⟨2, ![K, C]⟩ : Shape).Idx → EReal) :
    (⟨2, ![N, C]⟩ : Shape).Idx → EReal :=
  fun i => ∑ k : Fin K, x (ix2 (n0 := N) (i 0) k) * w (ix2 (n1 := C) k (i 1))

theorem rowsMul_apply {N K C : Nat} (x : (⟨2, ![N, K]⟩ : Shape).Idx → EReal) (w : (⟨2, ![K, C]⟩ : Shape).Idx → EReal)
    (r : Fin N) (c : Fin C) : rowsMul x w (ix2 r c) = ∑ k : Fin K, x (ix2 r k) * w (ix2 k c) := rfl

/-- Bias and ReLU: entry (r, c) is the larger of a[r, c] + b[0, c] and the value of the zero word. -/
def biasRelu {N C : Nat} (a : (⟨2, ![N, C]⟩ : Shape).Idx → EReal) (b : (⟨2, ![1, C]⟩ : Shape).Idx → EReal) :
    (⟨2, ![N, C]⟩ : Shape).Idx → EReal :=
  fun i => max (a i + b (ix2 (n1 := C) (0 : Fin 1) (i 1))) (Ideal.ofBits .f32 0x00000000#32)

theorem biasRelu_apply {N C : Nat} (a : (⟨2, ![N, C]⟩ : Shape).Idx → EReal) (b : (⟨2, ![1, C]⟩ : Shape).Idx → EReal)
    (r : Fin N) (c : Fin C) :
    biasRelu a b (ix2 r c) = max (a (ix2 r c) + b (ix2 (0 : Fin 1) c)) (Ideal.ofBits .f32 0x00000000#32) := rfl

/-- Pooling by graph id: entry (g, c) sums h[n, c] over the rows n whose id word, read signed, is g. -/
def poolRows {N C G : Nat} (ids : IVec (⟨2, ![N, 1]⟩ : Shape) 32) (h : (⟨2, ![N, C]⟩ : Shape).Idx → EReal) :
    (⟨2, ![G, C]⟩ : Shape).Idx → EReal :=
  fun i => ∑ n : Fin N,
    if (ids (ix2 n (0 : Fin 1))).toInt = (((i 0 : Fin G)).val : Int) then h (ix2 (n1 := C) n (i 1)) else 0

theorem poolRows_apply {N C G : Nat} (ids : IVec (⟨2, ![N, 1]⟩ : Shape) 32) (h : (⟨2, ![N, C]⟩ : Shape).Idx → EReal)
    (g : Fin G) (c : Fin C) :
    poolRows ids h (ix2 g c)
      = ∑ n : Fin N, if (ids (ix2 n (0 : Fin 1))).toInt = (g.val : Int) then h (ix2 n c) else 0 := rfl

/-- The head: entry (g, 0) is the logistic function of ∑ₖ p[g, k] · w[k, 0] + b[0, 0]. -/
def headLogistic {G K : Nat} (p : (⟨2, ![G, K]⟩ : Shape).Idx → EReal) (w : (⟨2, ![K, 1]⟩ : Shape).Idx → EReal)
    (b : (⟨2, ![1, 1]⟩ : Shape).Idx → EReal) : (⟨2, ![G, 1]⟩ : Shape).Idx → EReal :=
  fun i => Ideal.logistic (rowsMul p w i + b (ix2 (0 : Fin 1) (0 : Fin 1)))

theorem headLogistic_apply {G K : Nat} (p : (⟨2, ![G, K]⟩ : Shape).Idx → EReal) (w : (⟨2, ![K, 1]⟩ : Shape).Idx → EReal)
    (b : (⟨2, ![1, 1]⟩ : Shape).Idx → EReal) (g : Fin G) (z : Fin 1) :
    headLogistic p w b (ix2 g z)
      = Ideal.logistic ((∑ k : Fin K, p (ix2 g k) * w (ix2 k z)) + b (ix2 (0 : Fin 1) (0 : Fin 1))) := rfl

end Cert.Spec

end
-- ==== Proof.RegProj.lean ====
/-
  The two projection regions (rows of 2000 times a small weight matrix, 125 grid points each): after the region the
  output array is, row by row, the product of the input array's rows with the weight matrix.
-/
import proofs.«429095_j35888746725385_4_alg».proof.Proof.Gen.KernelIdeal.Frame
import proofs.«429095_j35888746725385_4_alg».proof.Proof.Spec
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

open scoped BigOperators

namespace Cert.KernelIdeal.RegProj

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the ideal values
variable (V : (c : Dev nD) → (b : Ref sig .tc) → Buf (Elt Ideal) ((c : Thread nD τ).loc b))

/-! # Region 0: the rows of the input (16 wide) times the 16×8 weights -/

/-! ## The contraction of the 2000×16 by 16×8 product, axis by axis -/

theorem lhs_proj0_0 (i : S2000x8.Idx) (q : dot_S2000x16_S16x8_S2000x8_1_0_0_1_n_n.contr.Idx) :
    (dot_S2000x16_S16x8_S2000x8_1_0_0_1_n_n.lhsIdx i q 0).val = (i 0).val := by
  unfold DotDims.lhsIdx
  rw [dif_neg (show ¬(0 : Fin S2000x16.rank) ∈ dot_S2000x16_S16x8_S2000x8_1_0_0_1_n_n.lhsBatch by decide), dif_pos (show (0 : Fin S2000x16.rank) ∈ dot_S2000x16_S16x8_S2000x8_1_0_0_1_n_n.lhsNonContracting by decide)]
  rfl
theorem lhs_proj0_1 (i : S2000x8.Idx) (q : dot_S2000x16_S16x8_S2000x8_1_0_0_1_n_n.contr.Idx) :
    (dot_S2000x16_S16x8_S2000x8_1_0_0_1_n_n.lhsIdx i q 1).val = (q ⟨0, by decide⟩).val :=
  dot_S2000x16_S16x8_S2000x8_1_0_0_1_n_n.lhsIdx_val_of_single rfl i q
theorem rhs_proj0_0 (i : S2000x8.Idx) (q : dot_S2000x16_S16x8_S2000x8_1_0_0_1_n_n.contr.Idx) :
    (dot_S2000x16_S16x8_S2000x8_1_0_0_1_n_n.rhsIdx i q 0).val = (q ⟨0, by decide⟩).val :=
  dot_S2000x16_S16x8_S2000x8_1_0_0_1_n_n.rhsIdx_val_of_single rfl i q
theorem rhs_proj0_1 (i : S2000x8.Idx) (q : dot_S2000x16_S16x8_S2000x8_1_0_0_1_n_n.contr.Idx) :
    (dot_S2000x16_S16x8_S2000x8_1_0_0_1_n_n.rhsIdx i q 1).val = (i 1).val := by
  unfold DotDims.rhsIdx
  rw [dif_neg (show ¬(1 : Fin S16x8.rank) ∈ dot_S2000x16_S16x8_S2000x8_1_0_0_1_n_n.rhsBatch by decide), dif_pos (show (1 : Fin S16x8.rank) ∈ dot_S2000x16_S16x8_S2000x8_1_0_0_1_n_n.rhsNonContracting by decide)]
  rfl

/-- The body's payload of region 0 at entry (p, q) of its block: the p-th row of the loaded rows times the q-th
    column of the weights, ∑ₖ x[p, k] · w[k, q] (the narrowing to bf16 is the identity on extended reals, and the
    accumulator is the zero constant). -/
theorem proj0_apply (x : Vec Ideal S2000x16 .f32) (w : Vec Ideal S16x8 .f32) (p : Fin 2000) (q : Fin 8) :
    k0_pay1 (F := Ideal) x w (ix2 p q) = ∑ k : Fin 16, x (ix2 p k) * w (ix2 k q) := by
  unfold k0_pay1
  simp only [matmul]
  rw [Ideal.matmul_constant_zero_apply, ← Equiv.sum_comp (contrEquiv1 dot_S2000x16_S16x8_S2000x8_1_0_0_1_n_n 16 rfl rfl).symm]
  refine Finset.sum_congr rfl fun k _ => ?_
  have hk := contrEquiv1_symm_val dot_S2000x16_S16x8_S2000x8_1_0_0_1_n_n 16 rfl rfl k
  have el : dot_S2000x16_S16x8_S2000x8_1_0_0_1_n_n.lhsIdx (ix2 p q) ((contrEquiv1 dot_S2000x16_S16x8_S2000x8_1_0_0_1_n_n 16 rfl rfl).symm k) = ix2 p k := funext fun a => Fin.ext (by
    match a with
    | ⟨0, _⟩ => exact lhs_proj0_0 _ _
    | ⟨1, _⟩ => exact (lhs_proj0_1 _ _).trans hk)
  have er : dot_S2000x16_S16x8_S2000x8_1_0_0_1_n_n.rhsIdx (ix2 p q) ((contrEquiv1 dot_S2000x16_S16x8_S2000x8_1_0_0_1_n_n 16 rfl rfl).symm k) = ix2 k q := funext fun a => Fin.ext (by
    match a with
    | ⟨0, _⟩ => exact (rhs_proj0_0 _ _).trans hk
    | ⟨1, _⟩ => exact rhs_proj0_1 _ _)
  rw [truncf_apply, truncf_apply, el, er]

/-! ## From the blocks to the array -/

theorem zero_offsets : (![0, 0] : Fin 2 → Nat) = fun _ => 0 := funext fun a => by fin_cases a <;> rfl

/-- The printed index maps of region 0, decided over the 125 grid points: the rows window and the output window sit
    at block (t, 0), the weights window at block (0, 0). -/
theorem blocks0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point t writes back is block t of the product of the rows with the weights. -/
theorem flushed0_eq (c : Dev nD) (t : Fin cfg0.N) :
    (dat0 (F := Ideal) V c).flushed 2 t
      = ((cfg0.win 2).blk t).view.read (Elt Ideal)
          (Cert.Spec.rowsMul (N := 250000) (K := 16) (C := 8) (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x16) zero_offsets, View.ld_unit_zero (S := S16x8) zero_offsets]
  obtain ⟨e00, e01, e10, e11, e20, e21⟩ := blocks0 t
  funext j
  obtain ⟨p, q, rfl⟩ : ∃ (p : Fin 2000) (q : Fin 8), j = ix2 p q := ⟨j 0, j 1, eq_ix2 j⟩
  show k0_pay1 (iblk0 V c 0 t) (iblk0 V c 1 t) (ix2 p q) = Cert.Spec.rowsMul (N := 250000) (K := 16) (C := 8) (V c main_arg0) (V c main_arg3) (((cfg0.win 2).blk t).view.emb (ix2 p q))
  refine (proj0_apply _ _ p q).trans ?_
  have ht : t.val < 125 := lt_of_lt_of_eq t.isLt N_0
  have hr : 2000 * t.val + p.val < 250000 := by have := p.isLt; omega
  -- the entry's place in the array: row 2000·t + p, column q
  have ho : ((cfg0.win 2).blk t).view.emb (ix2 p q) = ix2 (n0 := 250000) (n1 := 8) ⟨2000 * t.val + p.val, hr⟩ q := by
    funext a; apply Fin.ext
    match a with
    | ⟨0, _⟩ => show win0_2.index t (0 : Fin 2) * 2000 + 1 * p.val = 2000 * t.val + p.val; omega
    | ⟨1, _⟩ => show win0_2.index t (1 : Fin 2) * 8 + 1 * q.val = q.val; omega
  rw [ho, Cert.Spec.rowsMul_apply]
  refine Finset.sum_congr rfl fun k _ => ?_
  -- the rows block at (p, k) is the array at (2000·t + p, k); the weights block is the whole weight matrix
  have hx : iblk0 V c 0 t (ix2 p k) = V c main_arg0 (ix2 (n0 := 250000) (n1 := 16) ⟨2000 * t.val + p.val, hr⟩ k) := by
    show V c main_arg0 (((cfg0.win 0).blk t).view.emb (ix2 p k)) = _
    refine congrArg _ ?_
    funext a; apply Fin.ext
    match a with
    | ⟨0, _⟩ => show win0_0.index t (0 : Fin 2) * 2000 + 1 * p.val = 2000 * t.val + p.val; omega
    | ⟨1, _⟩ => show win0_0.index t (1 : Fin 2) * 16 + 1 * k.val = k.val; omega
  have hw : iblk0 V c 1 t (ix2 k q) = V c main_arg3 (ix2 (n0 := 16) (n1 := 8) k q) := by
    show V c main_arg3 (((cfg0.win 1).blk t).view.emb (ix2 k q)) = _
    refine congrArg _ ?_
    funext a; apply Fin.ext
    match a with
    | ⟨0, _⟩ => show win0_1.index t (0 : Fin 2) * 16 + 1 * k.val = k.val; omega
    | ⟨1, _⟩ => show win0_1.index t (1 : Fin 2) * 8 + 1 * q.val = q.val; omega
  rw [hx, hw]

/-- An index of the output array is in point t's block iff each coordinate is in the block's range on its axis. -/
theorem mem_block0 (t : Fin cfg0.N) (i : S250000x8.Idx) :
    i ∈ ((cfg0.win 2).blk t).view.set ↔ ∀ a : Fin 2, win0_2.index t a * S2000x8.size a ≤ (i a).val ∧ (i a).val < win0_2.index t a * S2000x8.size a + S2000x8.size a := by
  show i ∈ ((View.whole main_v32).slice (win0_2.rect t)).set ↔ _
  rw [View.set_slice_whole, Rect.mem_set_unit]
  exact Iff.rfl

/-- Every index of the output array is in some point's block: row r is in the block of point r / 2000. -/
theorem cover0 (i : S250000x8.Idx) :
    ∃ t : Fin cfg0.N, (cfg0.win 2).flush t = true ∧ i ∈ ((cfg0.win 2).blk t).view.set := by
  have hi0 : (i 0).val < 250000 := (i 0).isLt
  have hi1 : (i 1).val < 8 := (i 1).isLt
  have hN : (i 0).val / 2000 < cfg0.N := lt_of_lt_of_eq (by omega : (i 0).val / 2000 < 125) N_0.symm
  refine ⟨⟨(i 0).val / 2000, hN⟩, flush0_2 _, ?_⟩
  rw [mem_block0]
  obtain ⟨e00, e01, e10, e11, e20, e21⟩ := blocks0 ⟨(i 0).val / 2000, hN⟩
  have e20' : win0_2.index ⟨(i 0).val / 2000, hN⟩ (0 : Fin 2) = (i 0).val / 2000 := e20
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; omega
  | ⟨1, _⟩ => show win0_2.index ⟨(i 0).val / 2000, hN⟩ (1 : Fin 2) * 8 ≤ (i 1).val ∧ (i 1).val < win0_2.index ⟨(i 0).val / 2000, hN⟩ (1 : Fin 2) * 8 + 8; omega

/-- Region 0: the output array is x · W₁, entry (r, c) = ∑ₖ x[r, k] · W₁[k, c]. -/
theorem arr0 (c : Dev nD) :
    (dat0 (F := Ideal) V c).arrAt 2 cfg0.N
      = (Cert.Spec.rowsMul (N := 250000) (K := 16) (C := 8) (V c main_arg0) (V c main_arg3) : S250000x8.Idx → EReal) :=
  (dat0 (F := Ideal) V c).arrAt_eq_of_cover 2 _ (fun t _ => flushed0_eq V c t) cover0

/-! # Region 2: the rows of the hidden layer (8 wide) times the 8×8 weights -/

/-! ## The contraction of the 2000×8 by 8×8 product, axis by axis -/

theorem lhs_proj2_0 (i : S2000x8.Idx) (q : dot_S2000x8_S8x8_S2000x8_1_0_0_1_n_n.contr.Idx) :
    (dot_S2000x8_S8x8_S2000x8_1_0_0_1_n_n.lhsIdx i q 0).val = (i 0).val := by
  unfold DotDims.lhsIdx
  rw [dif_neg (show ¬(0 : Fin S2000x8.rank) ∈ dot_S2000x8_S8x8_S2000x8_1_0_0_1_n_n.lhsBatch by decide), dif_pos (show (0 : Fin S2000x8.rank) ∈ dot_S2000x8_S8x8_S2000x8_1_0_0_1_n_n.lhsNonContracting by decide)]
  rfl
theorem lhs_proj2_1 (i : S2000x8.Idx) (q : dot_S2000x8_S8x8_S2000x8_1_0_0_1_n_n.contr.Idx) :
    (dot_S2000x8_S8x8_S2000x8_1_0_0_1_n_n.lhsIdx i q 1).val = (q ⟨0, by decide⟩).val :=
  dot_S2000x8_S8x8_S2000x8_1_0_0_1_n_n.lhsIdx_val_of_single rfl i q
theorem rhs_proj2_0 (i : S2000x8.Idx) (q : dot_S2000x8_S8x8_S2000x8_1_0_0_1_n_n.contr.Idx) :
    (dot_S2000x8_S8x8_S2000x8_1_0_0_1_n_n.rhsIdx i q 0).val = (q ⟨0, by decide⟩).val :=
  dot_S2000x8_S8x8_S2000x8_1_0_0_1_n_n.rhsIdx_val_of_single rfl i q
theorem rhs_proj2_1 (i : S2000x8.Idx) (q : dot_S2000x8_S8x8_S2000x8_1_0_0_1_n_n.contr.Idx) :
    (dot_S2000x8_S8x8_S2000x8_1_0_0_1_n_n.rhsIdx i q 1).val = (i 1).val := by
  unfold DotDims.rhsIdx
  rw [dif_neg (show ¬(1 : Fin S8x8.rank) ∈ dot_S2000x8_S8x8_S2000x8_1_0_0_1_n_n.rhsBatch by decide), dif_pos (show (1 : Fin S8x8.rank) ∈ dot_S2000x8_S8x8_S2000x8_1_0_0_1_n_n.rhsNonContracting by decide)]
  rfl

/-- The body's payload of region 2 at entry (p, q) of its block: ∑ₖ h[p, k] · w[k, q] (the reshape of the loaded
    rows to their own shape and the narrowing to bf16 are identities, and the accumulator is the zero constant). -/
theorem proj2_apply (h : Vec Ideal S2000x8 .f32) (w : Vec Ideal S8x8 .f32) (p : Fin 2000) (q : Fin 8) :
    k2_pay1 (F := Ideal) h w (ix2 p q) = ∑ k : Fin 8, h (ix2 p k) * w (ix2 k q) := by
  unfold k2_pay1
  simp only [matmul]
  rw [Ideal.matmul_constant_zero_apply, ← Equiv.sum_comp (contrEquiv1 dot_S2000x8_S8x8_S2000x8_1_0_0_1_n_n 8 rfl rfl).symm]
  refine Finset.sum_congr rfl fun k _ => ?_
  have hk := contrEquiv1_symm_val dot_S2000x8_S8x8_S2000x8_1_0_0_1_n_n 8 rfl rfl k
  have el : dot_S2000x8_S8x8_S2000x8_1_0_0_1_n_n.lhsIdx (ix2 p q) ((contrEquiv1 dot_S2000x8_S8x8_S2000x8_1_0_0_1_n_n 8 rfl rfl).symm k) = ix2 p k := funext fun a => Fin.ext (by
    match a with
    | ⟨0, _⟩ => exact lhs_proj2_0 _ _
    | ⟨1, _⟩ => exact (lhs_proj2_1 _ _).trans hk)
  have er : dot_S2000x8_S8x8_S2000x8_1_0_0_1_n_n.rhsIdx (ix2 p q) ((contrEquiv1 dot_S2000x8_S8x8_S2000x8_1_0_0_1_n_n 8 rfl rfl).symm k) = ix2 k q := funext fun a => Fin.ext (by
    match a with
    | ⟨0, _⟩ => exact (rhs_proj2_0 _ _).trans hk
    | ⟨1, _⟩ => exact rhs_proj2_1 _ _)
  rw [truncf_apply, truncf_apply, shapeCast_self, el, er]

/-! ## From the blocks to the array -/

/-- The printed index maps of region 2, decided over the 125 grid points: the rows window and the output window sit
    at block (t, 0), the weights window at block (0, 0). -/
theorem blocks2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What grid point t writes back is block t of the product of the hidden rows with the weights. -/
theorem flushed2_eq (c : Dev nD) (t : Fin cfg2.N) :
    (dat2 (F := Ideal) V c).flushed 2 t
      = ((cfg2.win 2).blk t).view.read (Elt Ideal)
          (Cert.Spec.rowsMul (N := 250000) (K := 8) (C := 8) (V c main_v47) (V c main_arg5)) := by
  show (cfg2.win 2).cut (grid2.coords t) ((dat2 V c).after 2 t) = _
  rw [after2_2]
  unfold out2_2
  rw [View.canon_unit_zero zero_offsets]
  simp only [View.ld_unit_zero (S := S2000x8) zero_offsets, View.ld_unit_zero (S := S8x8) zero_offsets]
  obtain ⟨e00, e01, e10, e11, e20, e21⟩ := blocks2 t
  funext j
  obtain ⟨p, q, rfl⟩ : ∃ (p : Fin 2000) (q : Fin 8), j = ix2 p q := ⟨j 0, j 1, eq_ix2 j⟩
  show k2_pay1 (iblk2 V c 0 t) (iblk2 V c 1 t) (ix2 p q) = Cert.Spec.rowsMul (N := 250000) (K := 8) (C := 8) (V c main_v47) (V c main_arg5) (((cfg2.win 2).blk t).view.emb (ix2 p q))
  refine (proj2_apply _ _ p q).trans ?_
  have ht : t.val < 125 := lt_of_lt_of_eq t.isLt N_2
  have hr : 2000 * t.val + p.val < 250000 := by have := p.isLt; omega
  -- the entry's place in the array: row 2000·t + p, column q
  have ho : ((cfg2.win 2).blk t).view.emb (ix2 p q) = ix2 (n0 := 250000) (n1 := 8) ⟨2000 * t.val + p.val, hr⟩ q := by
    funext a; apply Fin.ext
    match a with
    | ⟨0, _⟩ => show win2_2.index t (0 : Fin 2) * 2000 + 1 * p.val = 2000 * t.val + p.val; omega
    | ⟨1, _⟩ => show win2_2.index t (1 : Fin 2) * 8 + 1 * q.val = q.val; omega
  rw [ho, Cert.Spec.rowsMul_apply]
  refine Finset.sum_congr rfl fun k _ => ?_
  -- the rows block at (p, k) is the array at (2000·t + p, k); the weights block is the whole weight matrix
  have hx : iblk2 V c 0 t (ix2 p k) = V c main_v47 (ix2 (n0 := 250000) (n1 := 8) ⟨2000 * t.val + p.val, hr⟩ k) := by
    show V c main_v47 (((cfg2.win 0).blk t).view.emb (ix2 p k)) = _
    refine congrArg _ ?_
    funext a; apply Fin.ext
    match a with
    | ⟨0, _⟩ => show win2_0.index t (0 : Fin 2) * 2000 + 1 * p.val = 2000 * t.val + p.val; omega
    | ⟨1, _⟩ => show win2_0.index t (1 : Fin 2) * 8 + 1 * k.val = k.val; omega
  have hw : iblk2 V c 1 t (ix2 k q) = V c main_arg5 (ix2 (n0 := 8) (n1 := 8) k q) := by
    show V c main_arg5 (((cfg2.win 1).blk t).view.emb (ix2 k q)) = _
    refine congrArg _ ?_
    funext a; apply Fin.ext
    match a with
    | ⟨0, _⟩ => show win2_1.index t (0 : Fin 2) * 8 + 1 * k.val = k.val; omega
    | ⟨1, _⟩ => show win2_1.index t (1 : Fin 2) * 8 + 1 * q.val = q.val; omega
  rw [hx, hw]

/-- An index of the output array is in point t's block iff each coordinate is in the block's range on its axis. -/
theorem mem_block2 (t : Fin cfg2.N) (i : S250000x8.Idx) :
    i ∈ ((cfg2.win 2).blk t).view.set ↔ ∀ a : Fin 2, win2_2.index t a * S2000x8.size a ≤ (i a).val ∧ (i a).val < win2_2.index t a * S2000x8.size a + S2000x8.size a := by
  show i ∈ ((View.whole main_v48).slice (win2_2.rect t)).set ↔ _
  rw [View.set_slice_whole, Rect.mem_set_unit]
  exact Iff.rfl

/-- Every index of the output array is in some point's block: row r is in the block of point r / 2000. -/
theorem cover2 (i : S250000x8.Idx) :
    ∃ t : Fin cfg2.N, (cfg2.win 2).flush t = true ∧ i ∈ ((cfg2.win 2).blk t).view.set := by
  have hi0 : (i 0).val < 250000 := (i 0).isLt
  have hi1 : (i 1).val < 8 := (i 1).isLt
  have hN : (i 0).val / 2000 < cfg2.N := lt_of_lt_of_eq (by omega : (i 0).val / 2000 < 125) N_2.symm
  refine ⟨⟨(i 0).val / 2000, hN⟩, flush2_2 _, ?_⟩
  rw [mem_block2]
  obtain ⟨e00, e01, e10, e11, e20, e21⟩ := blocks2 ⟨(i 0).val / 2000, hN⟩
  have e20' : win2_2.index ⟨(i 0).val / 2000, hN⟩ (0 : Fin 2) = (i 0).val / 2000 := e20
  intro a
  match a with
  | ⟨0, _⟩ => show win2_2.index ⟨(i 0).val / 2000, hN⟩ (0 : Fin 2) * 2000 ≤ (i 0).val ∧ (i 0).val < win2_2.index ⟨(i 0).val / 2000, hN⟩ (0 : Fin 2) * 2000 + 2000; omega
  | ⟨1, _⟩ => show win2_2.index ⟨(i 0).val / 2000, hN⟩ (1 : Fin 2) * 8 ≤ (i 1).val ∧ (i 1).val < win2_2.index ⟨(i 0).val / 2000, hN⟩ (1 : Fin 2) * 8 + 8; omega

/-- Region 2: the output array is h · W₂, entry (r, c) = ∑ₖ h[r, k] · W₂[k, c]. -/
theorem arr2 (c : Dev nD) :
    (dat2 (F := Ideal) V c).arrAt 2 cfg2.N
      = (Cert.Spec.rowsMul (N := 250000) (K := 8) (C := 8) (V c main_v47) (V c main_arg5) : S250000x8.Idx → EReal) :=
  (dat2 (F := Ideal) V c).arrAt_eq_of_cover 2 _ (fun t _ => flushed2_eq V c t) cover2

end Cert.KernelIdeal.RegProj

end
-- ==== Proof.RegBias.lean ====
/-
  The two bias-and-ReLU regions (blocks of 2000 rows, 125 grid points each): after the region the output array is,
  entry by entry, the larger of (input + bias of its column) and zero.
-/
import proofs.«429095_j35888746725385_4_alg».proof.Proof.Gen.KernelIdeal.Frame
import proofs.«429095_j35888746725385_4_alg».proof.Proof.Spec
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

open scoped BigOperators

namespace Cert.KernelIdeal.RegBias

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the ideal values
variable (V : (c : Dev nD) → (b : Ref sig .tc) → Buf (Elt Ideal) ((c : Thread nD τ).loc b))

/-- The offsets of a whole-buffer access are zero on both axes. -/
theorem off_zero : (![0, 0] : Fin 2 → Nat) = fun _ => 0 := funext fun a => by fin_cases a <;> rfl

/-- The specification read where a block's entry sits: the entry plus the bias of its column, or zero if larger. -/
theorem biasRelu_at (A : S250000x8.Idx → EReal) (B : S1x8.Idx → EReal) (i0 i2 : S250000x8.Idx) (i1 : S1x8.Idx)
    (h0 : i0 = i2) (h1 : i1 = ix2 (0 : Fin 1) (i2 1)) :
    max (A i0 + B i1) (Ideal.ofBits .f32 0x00000000#32)
      = Cert.Spec.biasRelu (N := 250000) (C := 8) A B i2 := by
  subst h0 h1; rfl

/-! ## Region 1 -/

/-- The body's payload at (p, q): the block's entry plus the bias of its column, or zero if that is larger. -/
theorem pay1_apply (x0 : Vec Ideal S2000x8 .f32) (x1 : Vec Ideal S1x8 .f32) (p : Fin 2000) (q : Fin 8) :
    k1_pay1 (F := Ideal) x0 x1 (ix2 p q)
      = max (x0 (ix2 p q) + x1 (ix2 (0 : Fin 1) q)) (Ideal.ofBits .f32 0x00000000#32) := by
  unfold k1_pay1
  rw [maximumf_apply, addf_apply, broadcast_apply, shapeCast_self, shapeCast_self, broadcastTo_1b_ab_apply]
  rfl

/-- The index maps over the grid: at point t the input and the output are at block row t, the bias at its one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias-and-ReLU of the two input arrays. -/
theorem flushed1 (c : Dev nD) (t : Fin cfg1.N) :
    (dat1 (F := Ideal) V c).flushed 2 t
      = ((cfg1.win 2).blk t).view.read (Elt Ideal)
          (Cert.Spec.biasRelu (N := 250000) (C := 8) (V c main_v45) (V c main_v46) : S250000x8.Idx → EReal) := by
  show (cfg1.win 2).cut (grid1.coords t) ((dat1 V c).after 2 t) = _
  rw [after1_2]
  unfold out1_2
  rw [View.canon_unit_zero off_zero]
  simp only [View.ld_unit_zero (S := S2000x8) off_zero, View.ld_unit_zero (S := S1x8) off_zero]
  obtain ⟨e00, e01, e10, e11, e20, e21⟩ := idx1 t
  funext j
  obtain ⟨p, q, rfl⟩ : ∃ (p : Fin 2000) (q : Fin 8), j = ix2 p q := ⟨j 0, j 1, eq_ix2 j⟩
  refine (pay1_apply (iblk1 V c 0 t) (iblk1 V c 1 t) p q).trans ?_
  -- the input's block sits where the output's does; the bias block is the whole one-row array
  have h0 : ((cfg1.win 0).blk t).view.emb (ix2 p q) = ((cfg1.win 2).blk t).view.emb (ix2 p q) := by
    funext a; apply Fin.ext
    match a with
    | ⟨0, _⟩ =>
      show win1_0.index t (0 : Fin 2) * 2000 + 1 * p.val = win1_2.index t (0 : Fin 2) * 2000 + 1 * p.val; omega
    | ⟨1, _⟩ =>
      show win1_0.index t (1 : Fin 2) * 8 + 1 * q.val = win1_2.index t (1 : Fin 2) * 8 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ =>
      show win1_1.index t (1 : Fin 2) * 8 + 1 * q.val = win1_2.index t (1 : Fin 2) * 8 + 1 * q.val; omega
  exact biasRelu_at (V c main_v45) (V c main_v46) _ _ _ h0 h1

/-- An index of the array is in point t's block iff each coordinate is in the block's range on its axis. -/
theorem mem_blk1 (t : Fin cfg1.N) (i : S250000x8.Idx) :
    i ∈ ((cfg1.win 2).blk t).view.set
      ↔ ∀ a : Fin 2, win1_2.index t a * S2000x8.size a ≤ (i a).val
          ∧ (i a).val < win1_2.index t a * S2000x8.size a + S2000x8.size a := by
  show i ∈ ((View.whole main_v47).slice (win1_2.rect t)).set ↔ _
  rw [View.set_slice_whole, Rect.mem_set_unit]
  exact Iff.rfl

/-- Row r lies in the block of the point r / 2000: the 125 blocks of 2000 rows fill the 250000 rows. -/
theorem cover1 (i : S250000x8.Idx) :
    ∃ t : Fin cfg1.N, (cfg1.win 2).flush t = true ∧ i ∈ ((cfg1.win 2).blk t).view.set := by
  have hi0 : (i 0).val < 250000 := (i 0).isLt
  have hi1 : (i 1).val < 8 := (i 1).isLt
  have ht : (i 0).val / 2000 < grid1.N := by rw [N_1]; omega
  refine ⟨⟨(i 0).val / 2000, ht⟩, flush1_2 _, ?_⟩
  obtain ⟨-, -, -, -, e20, e21⟩ := idx1 ⟨(i 0).val / 2000, ht⟩
  rw [mem_blk1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win1_2.index ⟨(i 0).val / 2000, ht⟩ (1 : Fin 2) * 8 ≤ (i 1).val
      ∧ (i 1).val < win1_2.index ⟨(i 0).val / 2000, ht⟩ (1 : Fin 2) * 8 + 8
    rw [e21]; omega

/-- Region 1: entry (r, c) = max (a[r, c] + b[0, c]) 0. -/
theorem arr1 (c : Dev nD) :
    (dat1 (F := Ideal) V c).arrAt 2 cfg1.N
      = (Cert.Spec.biasRelu (N := 250000) (C := 8) (V c main_v45) (V c main_v46) : S250000x8.Idx → EReal) :=
  (dat1 (F := Ideal) V c).arrAt_eq_of_cover 2 _ (fun t _ => flushed1 V c t) cover1

/-! ## Region 3 -/

/-- The body's payload at (p, q): the block's entry plus the bias of its column, or zero if that is larger. -/
theorem pay3_apply (x0 : Vec Ideal S2000x8 .f32) (x1 : Vec Ideal S1x8 .f32) (p : Fin 2000) (q : Fin 8) :
    k3_pay1 (F := Ideal) x0 x1 (ix2 p q)
      = max (x0 (ix2 p q) + x1 (ix2 (0 : Fin 1) q)) (Ideal.ofBits .f32 0x00000000#32) := by
  unfold k3_pay1
  rw [maximumf_apply, addf_apply, broadcast_apply, shapeCast_self, shapeCast_self, broadcastTo_1b_ab_apply]
  rfl

/-- The index maps over the grid: at point t the input and the output are at block row t, the bias at its one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the bias-and-ReLU of the two input arrays. -/
theorem flushed3 (c : Dev nD) (t : Fin cfg3.N) :
    (dat3 (F := Ideal) V c).flushed 2 t
      = ((cfg3.win 2).blk t).view.read (Elt Ideal)
          (Cert.Spec.biasRelu (N := 250000) (C := 8) (V c main_v61) (V c main_v62) : S250000x8.Idx → EReal) := by
  show (cfg3.win 2).cut (grid3.coords t) ((dat3 V c).after 2 t) = _
  rw [after3_2]
  unfold out3_2
  rw [View.canon_unit_zero off_zero]
  simp only [View.ld_unit_zero (S := S2000x8) off_zero, View.ld_unit_zero (S := S1x8) off_zero]
  obtain ⟨e00, e01, e10, e11, e20, e21⟩ := idx3 t
  funext j
  obtain ⟨p, q, rfl⟩ : ∃ (p : Fin 2000) (q : Fin 8), j = ix2 p q := ⟨j 0, j 1, eq_ix2 j⟩
  refine (pay3_apply (iblk3 V c 0 t) (iblk3 V c 1 t) p q).trans ?_
  -- the input's block sits where the output's does; the bias block is the whole one-row array
  have h0 : ((cfg3.win 0).blk t).view.emb (ix2 p q) = ((cfg3.win 2).blk t).view.emb (ix2 p q) := by
    funext a; apply Fin.ext
    match a with
    | ⟨0, _⟩ =>
      show win3_0.index t (0 : Fin 2) * 2000 + 1 * p.val = win3_2.index t (0 : Fin 2) * 2000 + 1 * p.val; omega
    | ⟨1, _⟩ =>
      show win3_0.index t (1 : Fin 2) * 8 + 1 * q.val = win3_2.index t (1 : Fin 2) * 8 + 1 * q.val; omega
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ =>
      show win3_1.index t (1 : Fin 2) * 8 + 1 * q.val = win3_2.index t (1 : Fin 2) * 8 + 1 * q.val; omega
  exact biasRelu_at (V c main_v61) (V c main_v62) _ _ _ h0 h1

/-- An index of the array is in point t's block iff each coordinate is in the block's range on its axis. -/
theorem mem_blk3 (t : Fin cfg3.N) (i : S250000x8.Idx) :
    i ∈ ((cfg3.win 2).blk t).view.set
      ↔ ∀ a : Fin 2, win3_2.index t a * S2000x8.size a ≤ (i a).val
          ∧ (i a).val < win3_2.index t a * S2000x8.size a + S2000x8.size a := by
  show i ∈ ((View.whole main_v63).slice (win3_2.rect t)).set ↔ _
  rw [View.set_slice_whole, Rect.mem_set_unit]
  exact Iff.rfl

/-- Row r lies in the block of the point r / 2000: the 125 blocks of 2000 rows fill the 250000 rows. -/
theorem cover3 (i : S250000x8.Idx) :
    ∃ t : Fin cfg3.N, (cfg3.win 2).flush t = true ∧ i ∈ ((cfg3.win 2).blk t).view.set := by
  have hi0 : (i 0).val < 250000 := (i 0).isLt
  have hi1 : (i 1).val < 8 := (i 1).isLt
  have ht : (i 0).val / 2000 < grid3.N := by rw [N_3]; omega
  refine ⟨⟨(i 0).val / 2000, ht⟩, flush3_2 _, ?_⟩
  obtain ⟨-, -, -, -, e20, e21⟩ := idx3 ⟨(i 0).val / 2000, ht⟩
  rw [mem_blk3]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win3_2.index ⟨(i 0).val / 2000, ht⟩ (1 : Fin 2) * 8 ≤ (i 1).val
      ∧ (i 1).val < win3_2.index ⟨(i 0).val / 2000, ht⟩ (1 : Fin 2) * 8 + 8
    rw [e21]; omega

/-- Region 3: entry (r, c) = max (a[r, c] + b[0, c]) 0. -/
theorem arr3 (c : Dev nD) :
    (dat3 (F := Ideal) V c).arrAt 2 cfg3.N
      = (Cert.Spec.biasRelu (N := 250000) (C := 8) (V c main_v61) (V c main_v62) : S250000x8.Idx → EReal) :=
  (dat3 (F := Ideal) V c).arrAt_eq_of_cover 2 _ (fun t _ => flushed3 V c t) cover3

end Cert.KernelIdeal.RegBias

end
-- ==== Proof.RegPoolSum.lean ====
/-
  Pure algebra for the pooling region: no program is imported here.

  * A 32-bit word equals the word of a small natural g exactly when, read as a signed integer, it is g.
  * The one-hot factor: the compare bit of two words, zero-extended and converted to a float, is 1 where the words
    agree and 0 elsewhere; so multiplying by it keeps the other factor or gives 0 (on the extended reals 1 · x = x
    and 0 · x = 0 for every x, infinite ones included).
  * Sums over the rows: a function on the rows, extended by zero to all naturals, summed over the first
    B · (n + 1) naturals is the sum over the first B · n plus the sum over block n's B rows; over all N naturals it is
    the sum over the rows.
-/
import Idealize.ShloMosaic.PureOps.Ideal
import Idealize.ShloMosaic.Lib.ValueIdx

noncomputable section

open scoped BigOperators

namespace Cert.Spec.PoolSum

open Idealize.ShloMosaic Idealize.ShloMosaic.ValueIdx

/-! ## Words -/

/-- The word of a natural below 2³¹, read signed, is that natural. -/
theorem toInt_ofNat_small (g : Nat) (hg : g < 2 ^ 31) : (BitVec.ofNat 32 g).toInt = (g : Int) := by
  rw [BitVec.toInt_eq_toNat_cond, BitVec.toNat_ofNat]
  have h1 : g % 2 ^ 32 = g := Nat.mod_eq_of_lt (by omega)
  rw [h1]
  split
  · rfl
  · omega

/-- A word is the word of a natural below 2³¹ exactly when its signed reading is that natural. -/
theorem eq_ofNat_iff_toInt (w : BitVec 32) (g : Nat) (hg : g < 2 ^ 31) :
    w = BitVec.ofNat 32 g ↔ w.toInt = (g : Int) := by
  constructor
  · rintro rfl
    exact toInt_ofNat_small g hg
  · intro h
    exact BitVec.eq_of_toInt_eq (h.trans (toInt_ofNat_small g hg).symm)

/-- The one-hot factor times x: x where the two words agree, 0 elsewhere. -/
theorem onehot_mul (w u : BitVec 32) (x : EReal) :
    (FloatOps.sitofp (F := Ideal) .f32 ((IntOp.cmpi .eq w u).setWidth 32) : EReal) * x = if w = u then x else 0 := by
  by_cases h : w = u
  · subst h
    rw [if_pos rfl]
    have e : (IntOp.cmpi .eq w w).setWidth 32 = 1#32 := by
      unfold IntOp.cmpi
      simp
    rw [e]
    show (((1#32 : BitVec 32).toInt : ℝ) : EReal) * x = x
    have : (1#32 : BitVec 32).toInt = 1 := by decide
    rw [this]
    simp
  · rw [if_neg h]
    have e : (IntOp.cmpi .eq w u).setWidth 32 = 0#32 := by
      unfold IntOp.cmpi
      have hb : (w == u) = false := beq_eq_false_iff_ne.mpr h
      simp only [hb]
      rfl
    rw [e]
    show (((0#32 : BitVec 32).toInt : ℝ) : EReal) * x = 0
    have : (0#32 : BitVec 32).toInt = 0 := by decide
    rw [this]
    simp

/-! ## Sums over blocks of rows -/

section Sums
variable {M : Type*} [AddCommMonoid M]

/-- A function on the N rows, extended by zero to every natural. -/
def extend {N : Nat} (f : Fin N → M) (k : Nat) : M := if h : k < N then f ⟨k, h⟩ else 0

theorem extend_of_lt {N : Nat} (f : Fin N → M) {k : Nat} (h : k < N) : extend f k = f ⟨k, h⟩ := dif_pos h

/-- The sum over the rows is the sum of the extension over the first N naturals. -/
theorem sum_eq_sum_range_extend {N : Nat} (f : Fin N → M) : ∑ n : Fin N, f n = ∑ k ∈ Finset.range N, extend f k := by
  rw [Finset.sum_range]
  exact Finset.sum_congr rfl fun i _ => (extend_of_lt f i.isLt).symm

/-- The first block: the first B naturals are block 0's B rows. -/
theorem sum_range_block_zero (B : Nat) (F : Nat → M) :
    ∑ k ∈ Finset.range (B * (0 + 1)), F k = ∑ p : Fin B, F (B * 0 + p.val) := by
  rw [show B * (0 + 1) = B from by omega, Finset.sum_range]
  exact Finset.sum_congr rfl fun p _ => by rw [show B * 0 + p.val = p.val from by omega]

/-- One more block: the first B · (n + 2) naturals are the first B · (n + 1) and then block n + 1's B rows. -/
theorem sum_range_block_succ (B n : Nat) (F : Nat → M) :
    ∑ k ∈ Finset.range (B * (n + 1 + 1)), F k
      = ∑ k ∈ Finset.range (B * (n + 1)), F k + ∑ p : Fin B, F (B * (n + 1) + p.val) := by
  rw [show B * (n + 1 + 1) = B * (n + 1) + B from by ring, Finset.sum_range_add]
  exact congrArg (_ + ·) (Finset.sum_range fun x => F (B * (n + 1) + x))

end Sums

end Cert.Spec.PoolSum

end
-- ==== Proof.RegPool.lean ====
/-
  The pooling region: 125 grid points accumulate into one resident 512 × 8 block, each point adding the product of
  the one-hot matrix of its 2000 graph ids (transposed) with its 2000 feature rows. After the region the output
  array is, at (g, c), the sum of h[n, c] over all rows n whose graph id is g.

  The steps. Each case of the body leaves, in the output block, the update of what the block held (the zero block at
  the first point) by the point's two input blocks. The update at (g, c) adds the sum over the point's 2000 rows p
  of onehot[p, g] · h[p, c], and onehot[p, g] is 1 when row p's id word is the word of g and 0 otherwise; on the
  extended reals 1 · x = x and 0 · x = 0 for every x, so the term is h[p, c] or nothing, with no finiteness asked.
  Point t's blocks are rows 2000 t … 2000 t + 1999 of the arrays, so by induction on the point the block holds,
  after point n, the contributions of rows 0 … 2000 (n + 1) − 1. The block is written back once, after point 124,
  when that is every row; block (0, 0) of the [512, 8] array is the array.
-/
import proofs.«429095_j35888746725385_4_alg».proof.Proof.Gen.KernelIdeal.Frame
import proofs.«429095_j35888746725385_4_alg».proof.Proof.Spec
import proofs.«429095_j35888746725385_4_alg».proof.Proof.RegPoolSum
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic

set_option maxRecDepth 16384

noncomputable section

open scoped BigOperators

namespace Cert.KernelIdeal.RegPool

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the ideal values
variable (V : (c : Dev nD) → (b : Ref sig .tc) → Buf (Elt Ideal) ((c : Thread nD τ).loc b))

/-! ## What each case of the body leaves in the output block -/

section Pieces
variable {F : FTy → Type} [FloatOps F]

theorem hz : (![0, 0] : Fin 2 → Nat) = fun _ => 0 := funext fun a => by fin_cases a <;> rfl

/-- Away from the first point the body leaves, in the output block holding `xo`, the update of `xo` by the point's
    ids block `x0` and feature block `x1`: its one store covers the block, and its loads read the whole buffers. -/
theorem piece_B (c : Dev nD) (i : grid4.Coords) (a1 : Memref sig .tc .vmem S2000x1 .i32) (h1 : a1.IsWhole)
    (a2 : Memref sig .tc .vmem S2000x8 .f32) (h2 : a2.IsWhole) (a3 : Memref sig .tc .vmem S512x8 .f32) (h3 : a3.IsWhole)
    (hc : ¬cond4_0 i) (x0 : Vec F S2000x1 .i32) (x1 : Vec F S2000x8 .f32) (xo : Vec F S512x8 .f32) :
    out4_B_2 c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero hz]
  simp only [View.readAt_eq_ld, h1.read_unread, h2.read_unread, h3.read_unread, View.ld_unit_zero (S := S2000x1) hz,
    View.ld_unit_zero (S := S2000x8) hz, View.ld_unit_zero (S := S512x8) hz]

/-- At the first point the body first stores the zero block, reads it back, and leaves the update of the zero block. -/
theorem piece_A (c : Dev nD) (i : grid4.Coords) (a1 : Memref sig .tc .vmem S2000x1 .i32) (h1 : a1.IsWhole)
    (a2 : Memref sig .tc .vmem S2000x8 .f32) (h2 : a2.IsWhole) (a3 : Memref sig .tc .vmem S512x8 .f32) (h3 : a3.IsWhole)
    (hc : cond4_0 i) (x0 : Vec F S2000x1 .i32) (x1 : Vec F S2000x8 .f32) :
    out4_A_2 c i a1 h1 a2 h2 a3 h3 hc x0 x1 = k4_pay2 x0 x1 (k4_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S512x8) hz, View.readCov_unit_zero (S := S512x8) _ hz]
  simp only [View.readAt_eq_ld, h1.read_unread, h2.read_unread, View.ld_unit_zero (S := S2000x1) hz,
    View.ld_unit_zero (S := S2000x8) hz, View.ld_unit_zero (S := S512x8) hz]

end Pieces

/-! ## The update at an entry -/

section Payload

/-- The left operand of the body's product on the contracted axis: the contraction position. -/
theorem lhs_pool_0 (i : S512x8.Idx) (q : dot_S2000x512_S2000x8_S512x8_0_0_1_1_n_n.contr.Idx) :
    (dot_S2000x512_S2000x8_S512x8_0_0_1_1_n_n.lhsIdx i q 0).val = (q ⟨0, by decide⟩).val :=
  dot_S2000x512_S2000x8_S512x8_0_0_1_1_n_n.lhsIdx_val_of_single rfl i q

/-- The left operand's free axis is the result's row (the graph). -/
theorem lhs_pool_1 (i : S512x8.Idx) (q : dot_S2000x512_S2000x8_S512x8_0_0_1_1_n_n.contr.Idx) :
    (dot_S2000x512_S2000x8_S512x8_0_0_1_1_n_n.lhsIdx i q 1).val = (i 0).val := by
  unfold DotDims.lhsIdx
  rw [dif_neg (show ¬(1 : Fin S2000x512.rank) ∈ dot_S2000x512_S2000x8_S512x8_0_0_1_1_n_n.lhsBatch by decide),
    dif_pos (show (1 : Fin S2000x512.rank) ∈ dot_S2000x512_S2000x8_S512x8_0_0_1_1_n_n.lhsNonContracting by decide)]
  rfl

/-- The right operand on the contracted axis: the contraction position. -/
theorem rhs_pool_0 (i : S512x8.Idx) (q : dot_S2000x512_S2000x8_S512x8_0_0_1_1_n_n.contr.Idx) :
    (dot_S2000x512_S2000x8_S512x8_0_0_1_1_n_n.rhsIdx i q 0).val = (q ⟨0, by decide⟩).val :=
  dot_S2000x512_S2000x8_S512x8_0_0_1_1_n_n.rhsIdx_val_of_single rfl i q

/-- The right operand's free axis is the result's column. -/
theorem rhs_pool_1 (i : S512x8.Idx) (q : dot_S2000x512_S2000x8_S512x8_0_0_1_1_n_n.contr.Idx) :
    (dot_S2000x512_S2000x8_S512x8_0_0_1_1_n_n.rhsIdx i q 1).val = (i 1).val := by
  unfold DotDims.rhsIdx
  rw [dif_neg (show ¬(1 : Fin S2000x8.rank) ∈ dot_S2000x512_S2000x8_S512x8_0_0_1_1_n_n.rhsBatch by decide),
    dif_pos (show (1 : Fin S2000x8.rank) ∈ dot_S2000x512_S2000x8_S512x8_0_0_1_1_n_n.rhsNonContracting by decide)]
  rfl

/-- The body's product into the zero block, at (g, c): the sum over the block's 2000 rows p of l[p, g] · r[p, c]. -/
theorem matmul_pool_apply (l : FVec Ideal S2000x512 .bf16) (r : FVec Ideal S2000x8 .bf16) (g : Fin 512) (c : Fin 8) :
    FloatOps.matmul dot_S2000x512_S2000x8_S512x8_0_0_1_1_n_n none l r (constant (F := Ideal) S512x8 .f32 0x00000000#32) (ix2 g c)
      = ∑ p : Fin 2000, l (ix2 p g) * r (ix2 p c) := by
  rw [Ideal.matmul_constant_zero_apply,
    ← Equiv.sum_comp (ValueIdx.contrEquiv1 dot_S2000x512_S2000x8_S512x8_0_0_1_1_n_n 2000 rfl rfl).symm]
  refine Finset.sum_congr rfl fun k _ => ?_
  have hk := ValueIdx.contrEquiv1_symm_val dot_S2000x512_S2000x8_S512x8_0_0_1_1_n_n 2000 rfl rfl k
  have el : dot_S2000x512_S2000x8_S512x8_0_0_1_1_n_n.lhsIdx (ix2 g c)
      ((ValueIdx.contrEquiv1 dot_S2000x512_S2000x8_S512x8_0_0_1_1_n_n 2000 rfl rfl).symm k) = ix2 k g :=
    funext fun a => Fin.ext (by
      match a with
      | ⟨0, _⟩ => exact (lhs_pool_0 _ _).trans hk
      | ⟨1, _⟩ => exact lhs_pool_1 _ _)
  have er : dot_S2000x512_S2000x8_S512x8_0_0_1_1_n_n.rhsIdx (ix2 g c)
      ((ValueIdx.contrEquiv1 dot_S2000x512_S2000x8_S512x8_0_0_1_1_n_n 2000 rfl rfl).symm k) = ix2 k c :=
    funext fun a => Fin.ext (by
      match a with
      | ⟨0, _⟩ => exact (rhs_pool_0 _ _).trans hk
      | ⟨1, _⟩ => exact rhs_pool_1 _ _)
  rw [el, er]

/-- The ids column spread along the graphs reads, at (p, g), row p's id word. -/
theorem ids_spread_apply (v : IVec S2000x1 32) (p : Fin 2000) (g : Fin 512) :
    broadcastTo S2000x512 (shapeCast S2000x1 v shapeCasts_S2000x1_S2000x1) broadcasts_S2000x1_S2000x512 (ix2 p g)
      = v (ix2 p (0 : Fin 1)) := by
  rw [shapeCast_self]
  exact broadcastTo_apply v broadcasts_S2000x1_S2000x512 (ix2 p g) (ix2 p (0 : Fin 1)) (fun a => by
    match a with
    | ⟨0, _⟩ => rfl
    | ⟨1, _⟩ => rfl)

/-- The graph numbers along axis 1 read, at (p, g), the word of g. -/
theorem graphs_apply (p : Fin 2000) (g : Fin 512) :
    iota .tc S2000x512 32 [1] iota_S2000x512_d1_w32 (ix2 p g) = BitVec.ofNat 32 g.val :=
  iota_single_apply .tc S2000x512 32 1 iota_S2000x512_d1_w32 (ix2 p g)

/-- THE UPDATE AT (g, c): the block's entry plus the sum, over the 2000 rows p of the point's blocks whose id word read
    signed is g, of the feature h[p, c]. -/
theorem pay2_apply (v4 : Vec Ideal S2000x1 .i32) (v11 : Vec Ideal S2000x8 .f32) (v15 : Vec Ideal S512x8 .f32)
    (g : Fin 512) (c : Fin 8) :
    (k4_pay2 (F := Ideal) v4 v11 v15 : S512x8.Idx → EReal) (ix2 g c)
      = v15 (ix2 g c) + ∑ p : Fin 2000, if (v4 (ix2 p (0 : Fin 1))).toInt = (g.val : Int) then v11 (ix2 p c) else 0 := by
  unfold k4_pay2
  dsimp only
  rw [addf_apply, shapeCast_self]
  simp only [matmul]
  rw [matmul_pool_apply]
  refine congrArg (v15 (ix2 g c) + ·) (Finset.sum_congr rfl fun p _ => ?_)
  show FloatOps.sitofp (F := Ideal) .f32 ((IntOp.cmpi .eq
      (broadcastTo S2000x512 (shapeCast S2000x1 v4 shapeCasts_S2000x1_S2000x1) broadcasts_S2000x1_S2000x512 (ix2 p g))
      (iota .tc S2000x512 32 [1] iota_S2000x512_d1_w32 (ix2 p g))).setWidth 32)
    * shapeCast S2000x8 v11 shapeCasts_S2000x8_S2000x8 (ix2 p c) = _
  rw [ids_spread_apply, graphs_apply, shapeCast_self, Cert.Spec.PoolSum.onehot_mul]
  exact if_congr (Cert.Spec.PoolSum.eq_ofNat_iff_toInt _ g.val (by have := g.isLt; omega)) rfl rfl

end Payload

/-! ## The blocks of a point, read off the arrays -/

/-- The graph ids, one 32-bit word per row. -/
abbrev idsArr (c : Dev nD) : Vec Ideal S250000x1 .i32 := V c main_v64
/-- The features, 8 per row. -/
abbrev featArr (c : Dev nD) : Vec Ideal S250000x8 .f32 := V c main_v63
/-- Point t's block of ids: rows 2000 t … 2000 t + 1999. -/
abbrev idsBlk (c : Dev nD) (t : Fin cfg4.N) : Vec Ideal S2000x1 .i32 := iblk4 V c 0 t
/-- Point t's block of features: the same rows. -/
abbrev featBlk (c : Dev nD) (t : Fin cfg4.N) : Vec Ideal S2000x8 .f32 := iblk4 V c 1 t

/-- The printed index maps, decided over the grid: the two input windows step down the rows with the point, the output
    window stays on its one block. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Row p of point t's ids block is row 2000 t + p of the ids. -/
theorem idsBlk_apply (c : Dev nD) (t : Fin cfg4.N) (p : Fin 2000) (hp : 2000 * t.val + p.val < 250000) :
    idsBlk V c t (ix2 p (0 : Fin 1)) = idsArr V c (ix2 ⟨2000 * t.val + p.val, hp⟩ (0 : Fin 1)) := by
  show V c main_v64 (((cfg4.win 0).blk t).view.emb (ix2 p (0 : Fin 1))) = V c main_v64 (ix2 ⟨2000 * t.val + p.val, hp⟩ (0 : Fin 1))
  refine congrArg (V c main_v64) (funext fun a => Fin.ext ?_)
  obtain ⟨e0, e1, -⟩ := idx_facts t
  match a with
  | ⟨0, _⟩ => show win4_0.index t (0 : Fin 2) * 2000 + 1 * p.val = 2000 * t.val + p.val; rw [e0]; omega
  | ⟨1, _⟩ => show win4_0.index t (1 : Fin 2) * 1 + 1 * 0 = 0; rw [e1]

/-- Row p of point t's feature block is row 2000 t + p of the features, column by column. -/
theorem featBlk_apply (c : Dev nD) (t : Fin cfg4.N) (p : Fin 2000) (cc : Fin 8) (hp : 2000 * t.val + p.val < 250000) :
    featBlk V c t (ix2 p cc) = featArr V c (ix2 ⟨2000 * t.val + p.val, hp⟩ cc) := by
  show V c main_v63 (((cfg4.win 1).blk t).view.emb (ix2 p cc)) = V c main_v63 (ix2 ⟨2000 * t.val + p.val, hp⟩ cc)
  refine congrArg (V c main_v63) (funext fun a => Fin.ext ?_)
  obtain ⟨-, -, e0, e1, -⟩ := idx_facts t
  match a with
  | ⟨0, _⟩ => show win4_1.index t (0 : Fin 2) * 2000 + 1 * p.val = 2000 * t.val + p.val; rw [e0]; omega
  | ⟨1, _⟩ => show win4_1.index t (1 : Fin 2) * 8 + 1 * cc.val = cc.val; rw [e1]; omega

/-! ## The running sums -/

/-- Row n's contribution to entry (g, cc): its feature if its id word read signed is g, else nothing. -/
abbrev term (c : Dev nD) (g : Fin 512) (cc : Fin 8) : Fin 250000 → EReal :=
  fun n => if (idsArr V c (ix2 n (0 : Fin 1))).toInt = (g.val : Int) then featArr V c (ix2 n cc) else 0

/-- Point t's 2000 rows, summed through its blocks, are rows 2000 t … 2000 t + 1999 of the contributions. -/
theorem block_sum (c : Dev nD) (t : Fin cfg4.N) (g : Fin 512) (cc : Fin 8) :
    (∑ p : Fin 2000, if (idsBlk V c t (ix2 p (0 : Fin 1))).toInt = (g.val : Int) then featBlk V c t (ix2 p cc) else 0)
      = ∑ p : Fin 2000, Cert.Spec.PoolSum.extend (term V c g cc) (2000 * t.val + p.val) := by
  have hN : t.val < 125 := lt_of_lt_of_eq t.isLt (show cfg4.N = 125 from N_4)
  refine Finset.sum_congr rfl fun p _ => ?_
  have hp : 2000 * t.val + p.val < 250000 := by have := p.isLt; omega
  rw [Cert.Spec.PoolSum.extend_of_lt _ hp, idsBlk_apply V c t p hp, featBlk_apply V c t p cc hp]

/-- At the first point the output block holds the update of the zero block by the point's blocks. -/
theorem outsAt_first (c : Dev nD) (t : Fin cfg4.N) (h0 : t.val % 125 = 0) :
    outsAt4 V c t.val t.isLt = k4_pay2 (idsBlk V c t) (featBlk V c t) (k4_pay1 (F := Ideal)) := by
  rw [outsAt4_A V c t h0]
  exact piece_A (F := Ideal) c (grid4.coords t) (ms4_0 t) (hs4_0 t) (ms4_1 t) (hs4_1 t) (ms4_2 t) (hs4_2 t)
    ((hcond4_0 t).mpr h0) (iblk4 V c 0 t) (iblk4 V c 1 t)

/-- At every later point it holds the update, by the point's blocks, of what the point before left. -/
theorem outsAt_later (c : Dev nD) (t : Fin cfg4.N) (h0 : ¬t.val % 125 = 0) :
    outsAt4 V c t.val t.isLt = k4_pay2 (idsBlk V c t) (featBlk V c t)
      (outsAt4 V c (t.val - 1) (Nat.lt_of_le_of_lt (Nat.sub_le _ _) t.isLt)) := by
  rw [outsAt4_B V c t h0]
  exact piece_B (F := Ideal) c (grid4.coords t) (ms4_0 t) (hs4_0 t) (ms4_1 t) (hs4_1 t) (ms4_2 t) (hs4_2 t)
    (fun h => h0 ((hcond4_0 t).mp h)) (iblk4 V c 0 t) (iblk4 V c 1 t)
    (outsAt4 V c (t.val - 1) (Nat.lt_of_le_of_lt (Nat.sub_le _ _) t.isLt))

/-- THE INVARIANT: after point n the output block holds, at (g, cc), the contributions of rows 0 … 2000 (n + 1) − 1. -/
theorem outsAt_eq (c : Dev nD) (g : Fin 512) (cc : Fin 8) : ∀ (n : ℕ) (hn : n < cfg4.N),
    (outsAt4 V c n hn : S512x8.Idx → EReal) (ix2 g cc)
      = ∑ k ∈ Finset.range (2000 * (n + 1)), Cert.Spec.PoolSum.extend (term V c g cc) k
  | 0, hn => by
    refine (congrFun (outsAt_first V c ⟨0, hn⟩ rfl) (ix2 g cc)).trans ?_
    refine (pay2_apply (idsBlk V c ⟨0, hn⟩) (featBlk V c ⟨0, hn⟩) (k4_pay1 (F := Ideal)) g cc).trans ?_
    rw [Cert.Spec.PoolSum.sum_range_block_zero]
    have hzero : (k4_pay1 (F := Ideal) : S512x8.Idx → EReal) (ix2 g cc) = 0 := Ideal.ofBits_zero_f32
    rw [hzero, zero_add]
    exact block_sum V c ⟨0, hn⟩ g cc
  | n + 1, hn => by
    have hN : cfg4.N = 125 := N_4
    have hB : ¬(⟨n + 1, hn⟩ : Fin cfg4.N).val % 125 = 0 := by dsimp only; omega
    refine (congrFun (outsAt_later V c ⟨n + 1, hn⟩ hB) (ix2 g cc)).trans ?_
    refine (pay2_apply (idsBlk V c ⟨n + 1, hn⟩) (featBlk V c ⟨n + 1, hn⟩) _ g cc).trans ?_
    rw [Cert.Spec.PoolSum.sum_range_block_succ]
    show (outsAt4 V c n (Nat.lt_of_succ_lt hn) : S512x8.Idx → EReal) (ix2 g cc) + _ = _
    rw [outsAt_eq c g cc n (Nat.lt_of_succ_lt hn)]
    exact congrArg (_ + ·) (block_sum V c ⟨n + 1, hn⟩ g cc)

/-! ## From the one resident block to the array -/

/-- The pooled array: entry (g, cc) sums the features h[n, cc] of the rows n whose id word read signed is g. -/
abbrev pooled (c : Dev nD) : S512x8.Idx → EReal :=
  Cert.Spec.poolRows (N := 250000) (C := 8) (G := 512) (V c main_v64) (V c main_v63)

/-- An entry of the pooled array is the sum of the rows' contributions, as a sum over the first 250000 naturals. -/
theorem pooled_apply (c : Dev nD) (g : Fin 512) (cc : Fin 8) :
    pooled V c (ix2 g cc) = ∑ k ∈ Finset.range 250000, Cert.Spec.PoolSum.extend (term V c g cc) k :=
  (Cert.Spec.poolRows_apply (N := 250000) (C := 8) (G := 512) (V c main_v64) (V c main_v63) g cc).trans
    (Cert.Spec.PoolSum.sum_eq_sum_range_extend (term V c g cc))

/-- After the last point the block holds the pooled array: the contributions of all 250000 rows. -/
theorem outsAt_last (c : Dev nD) (t : Fin cfg4.N) (h124 : t.val = 124) :
    (outsAt4 V c t.val t.isLt : S512x8.Idx → EReal) = pooled V c := by
  have hrows : 2000 * (t.val + 1) = 250000 := by omega
  funext j
  obtain ⟨g, cc, rfl⟩ : ∃ (g : Fin 512) (cc : Fin 8), j = ix2 g cc := ⟨j 0, j 1, eq_ix2 j⟩
  rw [outsAt_eq V c g cc t.val t.isLt, pooled_apply, hrows]

/-- Block (0, 0) of a [512, 8] array cut in [512, 8] blocks is the array: what a write-back of a block holding G
    writes is G read through the block. -/
theorem cut_eq_read (t : Fin cfg4.N) (G : S512x8.Idx → EReal) :
    (cfg4.win 2).cut (grid4.coords t) G = ((cfg4.win 2).blk t).view.read (Elt Ideal) G := by
  obtain ⟨-, -, -, -, e0, e1⟩ := idx_facts t
  funext j
  show G ((cfg4.win 2).xinj (grid4.coords t) j) = G (((cfg4.win 2).blk t).view.emb j)
  refine congrArg G (funext fun a => Fin.ext ?_)
  match a with
  | ⟨0, _⟩ => show (j 0).val = win4_2.index t (0 : Fin 2) * 512 + 1 * (j 0).val; rw [e0]; omega
  | ⟨1, _⟩ => show (j 1).val = win4_2.index t (1 : Fin 2) * 8 + 1 * (j 1).val; rw [e1]; omega

/-- The one write-back, after the last point, writes the pooled array. -/
theorem flushed_eq (c : Dev nD) (t : Fin cfg4.N) (hf : (cfg4.win 2).flush t = true) :
    (dat4 (F := Ideal) V c).flushed 2 t = ((cfg4.win 2).blk t).view.read (Elt Ideal) (pooled V c) := by
  have hN : cfg4.N = 125 := N_4
  have h124 : t.val = 124 := by have := (flush4_2 t).mp hf; have := t.isLt; omega
  show (cfg4.win 2).cut (grid4.coords t) ((dat4 (F := Ideal) V c).after 2 t) = _
  rw [after4_2, outsAt_last V c t h124]
  exact cut_eq_read t (pooled V c)

/-- An index of the array is in point t's block iff each coordinate is in the block's range on its axis. -/
theorem mem_blk (t : Fin cfg4.N) (i : S512x8.Idx) :
    i ∈ ((cfg4.win 2).blk t).view.set
      ↔ ∀ a : Fin 2, win4_2.index t a * S512x8.size a ≤ (i a).val ∧ (i a).val < win4_2.index t a * S512x8.size a + S512x8.size a := by
  show i ∈ ((View.whole main_v65).slice (win4_2.rect t)).set ↔ _
  rw [View.set_slice_whole, Rect.mem_set_unit]
  exact Iff.rfl

/-- Region 4: entry (g, c) = ∑ over the rows n with id n = g of h[n, c]. -/
theorem arr4 (c : Dev nD) :
    (dat4 (F := Ideal) V c).arrAt 2 cfg4.N
      = (Cert.Spec.poolRows (N := 250000) (C := 8) (G := 512) (V c main_v64) (V c main_v63) : S512x8.Idx → EReal) :=
  (dat4 (F := Ideal) V c).arrAt_eq_of_cover 2 (pooled V c) (flushed_eq V c) fun i => by
    have hN : cfg4.N = 125 := N_4
    refine ⟨⟨124, by omega⟩, (flush4_2 _).mpr rfl, ?_⟩
    rw [mem_blk]
    obtain ⟨-, -, -, -, e0, e1⟩ := idx_facts ⟨124, by omega⟩
    have h0 : (i 0 : Nat) < 512 := (i 0).isLt
    have h1 : (i 1 : Nat) < 8 := (i 1).isLt
    intro a
    match a with
    | ⟨0, _⟩ =>
      show win4_2.index ⟨124, _⟩ (0 : Fin 2) * 512 ≤ (i 0 : Nat) ∧ (i 0 : Nat) < win4_2.index ⟨124, _⟩ (0 : Fin 2) * 512 + 512
      rw [e0]; omega
    | ⟨1, _⟩ =>
      show win4_2.index ⟨124, _⟩ (1 : Fin 2) * 8 ≤ (i 1 : Nat) ∧ (i 1 : Nat) < win4_2.index ⟨124, _⟩ (1 : Fin 2) * 8 + 8
      rw [e1]; omega

end Cert.KernelIdeal.RegPool

end
-- ==== Proof.RegHead.lean ====
/-
  The head region (one grid point, whole arrays as blocks): the output array is the logistic function of
  pooled · Wl + bl.
-/
import proofs.«429095_j35888746725385_4_alg».proof.Proof.Gen.KernelIdeal.Frame
import proofs.«429095_j35888746725385_4_alg».proof.Proof.Spec
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

open scoped BigOperators

namespace Cert.KernelIdeal.RegHead

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the ideal values
variable (V : (c : Dev nD) → (b : Ref sig .tc) → Buf (Elt Ideal) ((c : Thread nD τ).loc b))

/-- The offsets of a whole-buffer access are zero on both axes. -/
theorem off_zero : (![0, 0] : Fin 2 → Nat) = fun _ => 0 := funext fun a => by fin_cases a <;> rfl

/-! ## The product's operand indices: at output (g, z) and contraction position k the left operand is read at
(g, k) and the right one at (k, z) -/

/-- The left operand's row is the output's row. -/
theorem lhs_head_0 (j : S512x1.Idx) (k : dot_S512x8_S8x1_S512x1_1_0_0_1_n_n.contr.Idx) :
    (dot_S512x8_S8x1_S512x1_1_0_0_1_n_n.lhsIdx j k 0).val = (j 0).val := by
  unfold DotDims.lhsIdx
  rw [dif_neg (show ¬(0 : Fin S512x8.rank) ∈ dot_S512x8_S8x1_S512x1_1_0_0_1_n_n.lhsBatch by decide),
    dif_pos (show (0 : Fin S512x8.rank) ∈ dot_S512x8_S8x1_S512x1_1_0_0_1_n_n.lhsNonContracting by decide)]
  rfl

/-- The left operand's column is the contraction position. -/
theorem lhs_head_1 (j : S512x1.Idx) (k : dot_S512x8_S8x1_S512x1_1_0_0_1_n_n.contr.Idx) :
    (dot_S512x8_S8x1_S512x1_1_0_0_1_n_n.lhsIdx j k 1).val = (k ⟨0, by decide⟩).val :=
  DotDims.lhsIdx_val_of_single (d := dot_S512x8_S8x1_S512x1_1_0_0_1_n_n) (cl := 1) rfl j k

/-- The right operand's row is the contraction position. -/
theorem rhs_head_0 (j : S512x1.Idx) (k : dot_S512x8_S8x1_S512x1_1_0_0_1_n_n.contr.Idx) :
    (dot_S512x8_S8x1_S512x1_1_0_0_1_n_n.rhsIdx j k 0).val = (k ⟨0, by decide⟩).val :=
  DotDims.rhsIdx_val_of_single (d := dot_S512x8_S8x1_S512x1_1_0_0_1_n_n) (cr := 0) rfl j k

/-- The right operand's column is the output's column. -/
theorem rhs_head_1 (j : S512x1.Idx) (k : dot_S512x8_S8x1_S512x1_1_0_0_1_n_n.contr.Idx) :
    (dot_S512x8_S8x1_S512x1_1_0_0_1_n_n.rhsIdx j k 1).val = (j 1).val := by
  unfold DotDims.rhsIdx
  rw [dif_neg (show ¬(1 : Fin S8x1.rank) ∈ dot_S512x8_S8x1_S512x1_1_0_0_1_n_n.rhsBatch by decide),
    dif_pos (show (1 : Fin S8x1.rank) ∈ dot_S512x8_S8x1_S512x1_1_0_0_1_n_n.rhsNonContracting by decide)]
  rfl

/-- The [512, 8] by [8, 1] product into the zero accumulator, read at (g, z): ∑ₖ x[g, k] · w[k, z]. -/
theorem matmul_head_apply (x : FVec Ideal S512x8 .bf16) (w : FVec Ideal S8x1 .bf16) (g : Fin 512) (z : Fin 1) :
    matmul dot_S512x8_S8x1_S512x1_1_0_0_1_n_n none x w (constant (F := Ideal) S512x1 .f32 0x00000000#32) (ix2 g z)
      = ∑ k : Fin 8, x (ix2 g k) * w (ix2 k z) := by
  show FloatOps.matmul dot_S512x8_S8x1_S512x1_1_0_0_1_n_n none x w _ (ix2 g z) = _
  rw [Ideal.matmul_constant_zero_apply, ← Equiv.sum_comp (contrEquiv1 dot_S512x8_S8x1_S512x1_1_0_0_1_n_n 8 rfl rfl).symm]
  refine Finset.sum_congr rfl fun k _ => ?_
  have ck := contrEquiv1_symm_val dot_S512x8_S8x1_S512x1_1_0_0_1_n_n 8 rfl rfl k
  have hl : dot_S512x8_S8x1_S512x1_1_0_0_1_n_n.lhsIdx (ix2 g z) ((contrEquiv1 dot_S512x8_S8x1_S512x1_1_0_0_1_n_n 8 rfl rfl).symm k) = ix2 g k := by
    funext a; apply Fin.ext
    match a with
    | ⟨0, _⟩ => exact lhs_head_0 _ _
    | ⟨1, _⟩ => exact (lhs_head_1 _ _).trans ck
  have hr : dot_S512x8_S8x1_S512x1_1_0_0_1_n_n.rhsIdx (ix2 g z) ((contrEquiv1 dot_S512x8_S8x1_S512x1_1_0_0_1_n_n 8 rfl rfl).symm k) = ix2 k z := by
    funext a; apply Fin.ext
    match a with
    | ⟨0, _⟩ => exact (rhs_head_0 _ _).trans ck
    | ⟨1, _⟩ => exact rhs_head_1 _ _
  rw [hl, hr]

/-- The body's payload at (g, z): the logistic function of row g of the pooled block times the weight column, plus
    the bias. -/
theorem pay5_apply (x0 : Vec Ideal S512x8 .f32) (x1 : Vec Ideal S8x1 .f32) (x2 : Vec Ideal S1x1 .f32)
    (g : Fin 512) (z : Fin 1) :
    k5_pay1 (F := Ideal) x0 x1 x2 (ix2 g z)
      = Ideal.logistic ((∑ k : Fin 8, x0 (ix2 g k) * x1 (ix2 k z)) + x2 (ix2 (0 : Fin 1) (0 : Fin 1))) := by
  unfold k5_pay1
  show FloatOps.logistic (addf _ _ (ix2 g z)) = _
  rw [Ideal.logistic_def, addf_apply, matmul_head_apply, shapeCast_self, shapeCast_self, broadcastTo_1b_ab_apply]
  obtain rfl : z = 0 := Fin.eq_zero z
  rfl

/-- The specification read where the block's entries sit. -/
theorem headLogistic_at (P : S512x8.Idx → EReal) (W : S8x1.Idx → EReal) (B : S1x1.Idx → EReal)
    (e0 : S512x8.Idx → S512x8.Idx) (e1 : S8x1.Idx → S8x1.Idx) (e2 : S1x1.Idx → S1x1.Idx)
    (i : S512x1.Idx) (g : Fin 512) (z : Fin 1)
    (h0 : ∀ k : Fin 8, e0 (ix2 g k) = ix2 (i 0) k) (h1 : ∀ k : Fin 8, e1 (ix2 k z) = ix2 k (i 1))
    (h2 : e2 (ix2 (0 : Fin 1) (0 : Fin 1)) = ix2 (0 : Fin 1) (0 : Fin 1)) :
    Ideal.logistic ((∑ k : Fin 8, P (e0 (ix2 g k)) * W (e1 (ix2 k z))) + B (e2 (ix2 (0 : Fin 1) (0 : Fin 1))))
      = Cert.Spec.headLogistic (G := 512) (K := 8) P W B i := by
  simp only [h0, h1, h2]; rfl

/-- The index maps at the one point: every window is at its one block. -/
theorem idx5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- What the one point writes back is its block (the whole array) of the head function of the three input arrays. -/
theorem flushed5 (c : Dev nD) (t : Fin cfg5.N) :
    (dat5 (F := Ideal) V c).flushed 3 t
      = ((cfg5.win 3).blk t).view.read (Elt Ideal)
          (Cert.Spec.headLogistic (G := 512) (K := 8) (V c main_v65) (V c main_arg7) (V c main_v66)
            : S512x1.Idx → EReal) := by
  show (cfg5.win 3).cut (grid5.coords t) ((dat5 V c).after 3 t) = _
  rw [after5_3]
  unfold out5_3
  rw [View.canon_unit_zero off_zero]
  simp only [View.ld_unit_zero (S := S512x8) off_zero, View.ld_unit_zero (S := S8x1) off_zero,
    View.ld_unit_zero (S := S1x1) off_zero]
  obtain ⟨e00, e01, e10, e11, e20, e21, e30, e31⟩ := idx5 t
  funext j
  obtain ⟨g, z, rfl⟩ : ∃ (g : Fin 512) (z : Fin 1), j = ix2 g z := ⟨j 0, j 1, eq_ix2 j⟩
  refine (pay5_apply (iblk5 V c 0 t) (iblk5 V c 1 t) (iblk5 V c 2 t) g z).trans ?_
  -- every window's one block is its whole array: an entry of a block sits at the same coordinates in the array
  have h0 : ∀ k : Fin 8, ((cfg5.win 0).blk t).view.emb (ix2 g k)
      = ix2 ((((cfg5.win 3).blk t).view.emb (ix2 g z)) 0) k := fun k => by
    funext a; apply Fin.ext
    match a with
    | ⟨0, _⟩ =>
      show win5_0.index t (0 : Fin 2) * 512 + 1 * g.val = win5_3.index t (0 : Fin 2) * 512 + 1 * g.val; omega
    | ⟨1, _⟩ => show win5_0.index t (1 : Fin 2) * 8 + 1 * k.val = k.val; omega
  have h1 : ∀ k : Fin 8, ((cfg5.win 1).blk t).view.emb (ix2 k z)
      = ix2 k ((((cfg5.win 3).blk t).view.emb (ix2 g z)) 1) := fun k => by
    funext a; apply Fin.ext
    match a with
    | ⟨0, _⟩ => show win5_1.index t (0 : Fin 2) * 8 + 1 * k.val = k.val; omega
    | ⟨1, _⟩ =>
      show win5_1.index t (1 : Fin 2) * 1 + 1 * z.val = win5_3.index t (1 : Fin 2) * 1 + 1 * z.val; omega
  have h2 : ((cfg5.win 2).blk t).view.emb (ix2 (0 : Fin 1) (0 : Fin 1)) = ix2 (0 : Fin 1) (0 : Fin 1) := by
    funext a; apply Fin.ext
    match a with
    | ⟨0, _⟩ => show win5_2.index t (0 : Fin 2) * 1 + 1 * 0 = 0; omega
    | ⟨1, _⟩ => show win5_2.index t (1 : Fin 2) * 1 + 1 * 0 = 0; omega
  exact headLogistic_at (V c main_v65) (V c main_arg7) (V c main_v66)
    ((cfg5.win 0).blk t).view.emb ((cfg5.win 1).blk t).view.emb ((cfg5.win 2).blk t).view.emb _ g z h0 h1 h2

/-- An index of the array is in point t's block iff each coordinate is in the block's range on its axis. -/
theorem mem_blk5 (t : Fin cfg5.N) (i : S512x1.Idx) :
    i ∈ ((cfg5.win 3).blk t).view.set
      ↔ ∀ a : Fin 2, win5_3.index t a * S512x1.size a ≤ (i a).val
          ∧ (i a).val < win5_3.index t a * S512x1.size a + S512x1.size a := by
  show i ∈ ((View.whole main_v67).slice (win5_3.rect t)).set ↔ _
  rw [View.set_slice_whole, Rect.mem_set_unit]
  exact Iff.rfl

/-- The one point's block is the whole array. -/
theorem cover5 (i : S512x1.Idx) :
    ∃ t : Fin cfg5.N, (cfg5.win 3).flush t = true ∧ i ∈ ((cfg5.win 3).blk t).view.set := by
  have hi0 : (i 0).val < 512 := (i 0).isLt
  have hi1 : (i 1).val < 1 := (i 1).isLt
  refine ⟨t5_0, flush5_3 _, ?_⟩
  obtain ⟨-, -, -, -, -, -, e30, e31⟩ := idx5 t5_0
  rw [mem_blk5]
  intro a
  match a with
  | ⟨0, _⟩ =>
    show win5_3.index t5_0 (0 : Fin 2) * 512 ≤ (i 0).val ∧ (i 0).val < win5_3.index t5_0 (0 : Fin 2) * 512 + 512
    omega
  | ⟨1, _⟩ =>
    show win5_3.index t5_0 (1 : Fin 2) * 1 ≤ (i 1).val ∧ (i 1).val < win5_3.index t5_0 (1 : Fin 2) * 1 + 1
    omega

/-- Region 5: entry (g, 0) = logistic (∑ₖ p[g, k] · w[k, 0] + b[0, 0]). -/
theorem arr5 (c : Dev nD) :
    (dat5 (F := Ideal) V c).arrAt 3 cfg5.N
      = (Cert.Spec.headLogistic (G := 512) (K := 8) (V c main_v65) (V c main_arg7) (V c main_v66) : S512x1.Idx → EReal) :=
  (dat5 (F := Ideal) V c).arrAt_eq_of_cover 3 _ (fun t _ => flushed5 V c t) cover5

end Cert.KernelIdeal.RegHead

end
-- ==== Proof.KFold.lean ====
/-
  The kernel program's buffers, boundary by boundary (at the ideal values): which buffers each stretch of host
  operations and each region leaves alone, what each region writes (its output array as one function of its
  input arrays), and what the host operations between the regions compute from the buffers they read.
-/
import proofs.«429095_j35888746725385_4_alg».proof.Proof.Gen.KernelIdeal.Frame
import proofs.«429095_j35888746725385_4_alg».proof.Proof.Spec
import proofs.«429095_j35888746725385_4_alg».proof.Proof.RegProj
import proofs.«429095_j35888746725385_4_alg».proof.Proof.RegBias
import proofs.«429095_j35888746725385_4_alg».proof.Proof.RegPool
import proofs.«429095_j35888746725385_4_alg».proof.Proof.RegHead
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-- A stretch of host operations leaves a buffer none of them writes as it was. -/
macro "hkeep" : tactic => `(tactic| (
  refine StableHlo.after_of_forall_not_mem _ _ (List.forall_iff_forall_mem.mp ?_)
  simp only [hostOps0, hostOps0_1, hostOps0_2, hostOps1, hostOps3, hostOps4, hostOps5, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Buffers left alone -/

/-- The node features are untouched up to the first region. -/
theorem keep_arg0_3_0 (c : Dev nD) :
    W3 m ρ c (Proc.devRef .tc main_arg0) = W0 m ρ c (Proc.devRef .tc main_arg0) :=
  (show W3 m ρ c (Proc.devRef .tc main_arg0) = W2 m ρ c (Proc.devRef .tc main_arg0) by hkeep).trans <|
    (show W2 m ρ c (Proc.devRef .tc main_arg0) = W1 m ρ c (Proc.devRef .tc main_arg0) by hkeep).trans <|
    (show W1 m ρ c (Proc.devRef .tc main_arg0) = W0 m ρ c (Proc.devRef .tc main_arg0) by hkeep)

/-- The first weight matrix is untouched up to the first region. -/
theorem keep_arg3_3_0 (c : Dev nD) :
    W3 m ρ c (Proc.devRef .tc main_arg3) = W0 m ρ c (Proc.devRef .tc main_arg3) :=
  (show W3 m ρ c (Proc.devRef .tc main_arg3) = W2 m ρ c (Proc.devRef .tc main_arg3) by hkeep).trans <|
    (show W2 m ρ c (Proc.devRef .tc main_arg3) = W1 m ρ c (Proc.devRef .tc main_arg3) by hkeep).trans <|
    (show W1 m ρ c (Proc.devRef .tc main_arg3) = W0 m ρ c (Proc.devRef .tc main_arg3) by hkeep)

/-- The first bias is untouched up to the host operations after the first region. -/
theorem keep_arg4_4_0 (c : Dev nD) :
    W4 m ρ c (Proc.devRef .tc main_arg4) = W0 m ρ c (Proc.devRef .tc main_arg4) :=
  (W4_of_ne m ρ c main_arg4 (by decide)).trans <|
    (show W3 m ρ c (Proc.devRef .tc main_arg4) = W2 m ρ c (Proc.devRef .tc main_arg4) by hkeep).trans <|
    (show W2 m ρ c (Proc.devRef .tc main_arg4) = W1 m ρ c (Proc.devRef .tc main_arg4) by hkeep).trans <|
    (show W1 m ρ c (Proc.devRef .tc main_arg4) = W0 m ρ c (Proc.devRef .tc main_arg4) by hkeep)

/-- The second weight matrix is untouched up to the third region. -/
theorem keep_arg5_6_0 (c : Dev nD) :
    W6 m ρ c (Proc.devRef .tc main_arg5) = W0 m ρ c (Proc.devRef .tc main_arg5) :=
  (W6_of_ne m ρ c main_arg5 (by decide)).trans <|
    (show W5 m ρ c (Proc.devRef .tc main_arg5) = W4 m ρ c (Proc.devRef .tc main_arg5) by hkeep).trans <|
    (W4_of_ne m ρ c main_arg5 (by decide)).trans <|
    (show W3 m ρ c (Proc.devRef .tc main_arg5) = W2 m ρ c (Proc.devRef .tc main_arg5) by hkeep).trans <|
    (show W2 m ρ c (Proc.devRef .tc main_arg5) = W1 m ρ c (Proc.devRef .tc main_arg5) by hkeep).trans <|
    (show W1 m ρ c (Proc.devRef .tc main_arg5) = W0 m ρ c (Proc.devRef .tc main_arg5) by hkeep)

/-- The second bias is untouched up to the host operations after the third region. -/
theorem keep_arg6_7_0 (c : Dev nD) :
    W7 m ρ c (Proc.devRef .tc main_arg6) = W0 m ρ c (Proc.devRef .tc main_arg6) :=
  (W7_of_ne m ρ c main_arg6 (by decide)).trans <|
    (W6_of_ne m ρ c main_arg6 (by decide)).trans <|
    (show W5 m ρ c (Proc.devRef .tc main_arg6) = W4 m ρ c (Proc.devRef .tc main_arg6) by hkeep).trans <|
    (W4_of_ne m ρ c main_arg6 (by decide)).trans <|
    (show W3 m ρ c (Proc.devRef .tc main_arg6) = W2 m ρ c (Proc.devRef .tc main_arg6) by hkeep).trans <|
    (show W2 m ρ c (Proc.devRef .tc main_arg6) = W1 m ρ c (Proc.devRef .tc main_arg6) by hkeep).trans <|
    (show W1 m ρ c (Proc.devRef .tc main_arg6) = W0 m ρ c (Proc.devRef .tc main_arg6) by hkeep)

/-- The graph ids are untouched up to the host operation before the pooling region. -/
theorem keep_arg2_9_0 (c : Dev nD) :
    W9 m ρ c (Proc.devRef .tc main_arg2) = W0 m ρ c (Proc.devRef .tc main_arg2) :=
  (W9_of_ne m ρ c main_arg2 (by decide)).trans <|
    (show W8 m ρ c (Proc.devRef .tc main_arg2) = W7 m ρ c (Proc.devRef .tc main_arg2) by hkeep).trans <|
    (W7_of_ne m ρ c main_arg2 (by decide)).trans <|
    (W6_of_ne m ρ c main_arg2 (by decide)).trans <|
    (show W5 m ρ c (Proc.devRef .tc main_arg2) = W4 m ρ c (Proc.devRef .tc main_arg2) by hkeep).trans <|
    (W4_of_ne m ρ c main_arg2 (by decide)).trans <|
    (show W3 m ρ c (Proc.devRef .tc main_arg2) = W2 m ρ c (Proc.devRef .tc main_arg2) by hkeep).trans <|
    (show W2 m ρ c (Proc.devRef .tc main_arg2) = W1 m ρ c (Proc.devRef .tc main_arg2) by hkeep).trans <|
    (show W1 m ρ c (Proc.devRef .tc main_arg2) = W0 m ρ c (Proc.devRef .tc main_arg2) by hkeep)

/-- The head's bias is untouched up to the host operation before the last region. -/
theorem keep_arg8_11_0 (c : Dev nD) :
    W11 m ρ c (Proc.devRef .tc main_arg8) = W0 m ρ c (Proc.devRef .tc main_arg8) :=
  (W11_of_ne m ρ c main_arg8 (by decide)).trans <|
    (show W10 m ρ c (Proc.devRef .tc main_arg8) = W9 m ρ c (Proc.devRef .tc main_arg8) by hkeep).trans <|
    (W9_of_ne m ρ c main_arg8 (by decide)).trans <|
    (show W8 m ρ c (Proc.devRef .tc main_arg8) = W7 m ρ c (Proc.devRef .tc main_arg8) by hkeep).trans <|
    (W7_of_ne m ρ c main_arg8 (by decide)).trans <|
    (W6_of_ne m ρ c main_arg8 (by decide)).trans <|
    (show W5 m ρ c (Proc.devRef .tc main_arg8) = W4 m ρ c (Proc.devRef .tc main_arg8) by hkeep).trans <|
    (W4_of_ne m ρ c main_arg8 (by decide)).trans <|
    (show W3 m ρ c (Proc.devRef .tc main_arg8) = W2 m ρ c (Proc.devRef .tc main_arg8) by hkeep).trans <|
    (show W2 m ρ c (Proc.devRef .tc main_arg8) = W1 m ρ c (Proc.devRef .tc main_arg8) by hkeep).trans <|
    (show W1 m ρ c (Proc.devRef .tc main_arg8) = W0 m ρ c (Proc.devRef .tc main_arg8) by hkeep)

/-- The head's weights are untouched up to the last region. -/
theorem keep_arg7_12_0 (c : Dev nD) :
    W12 m ρ c (Proc.devRef .tc main_arg7) = W0 m ρ c (Proc.devRef .tc main_arg7) :=
  (show W12 m ρ c (Proc.devRef .tc main_arg7) = W11 m ρ c (Proc.devRef .tc main_arg7) by hkeep).trans <|
    (W11_of_ne m ρ c main_arg7 (by decide)).trans <|
    (show W10 m ρ c (Proc.devRef .tc main_arg7) = W9 m ρ c (Proc.devRef .tc main_arg7) by hkeep).trans <|
    (W9_of_ne m ρ c main_arg7 (by decide)).trans <|
    (show W8 m ρ c (Proc.devRef .tc main_arg7) = W7 m ρ c (Proc.devRef .tc main_arg7) by hkeep).trans <|
    (W7_of_ne m ρ c main_arg7 (by decide)).trans <|
    (W6_of_ne m ρ c main_arg7 (by decide)).trans <|
    (show W5 m ρ c (Proc.devRef .tc main_arg7) = W4 m ρ c (Proc.devRef .tc main_arg7) by hkeep).trans <|
    (W4_of_ne m ρ c main_arg7 (by decide)).trans <|
    (show W3 m ρ c (Proc.devRef .tc main_arg7) = W2 m ρ c (Proc.devRef .tc main_arg7) by hkeep).trans <|
    (show W2 m ρ c (Proc.devRef .tc main_arg7) = W1 m ρ c (Proc.devRef .tc main_arg7) by hkeep).trans <|
    (show W1 m ρ c (Proc.devRef .tc main_arg7) = W0 m ρ c (Proc.devRef .tc main_arg7) by hkeep)

/-- The source list is untouched from where it is built up to the first layer's aggregation. -/
theorem keep_v3_4_1 (c : Dev nD) :
    W4 m ρ c (Proc.devRef .tc main_v3) = W1 m ρ c (Proc.devRef .tc main_v3) :=
  (W4_of_ne m ρ c main_v3 (by decide)).trans <|
    (show W3 m ρ c (Proc.devRef .tc main_v3) = W2 m ρ c (Proc.devRef .tc main_v3) by hkeep).trans <|
    (show W2 m ρ c (Proc.devRef .tc main_v3) = W1 m ρ c (Proc.devRef .tc main_v3) by hkeep)

/-- The source list is untouched between the two layers' aggregations. -/
theorem keep_v3_7_4 (c : Dev nD) :
    W7 m ρ c (Proc.devRef .tc main_v3) = W4 m ρ c (Proc.devRef .tc main_v3) :=
  (W7_of_ne m ρ c main_v3 (by decide)).trans <|
    (W6_of_ne m ρ c main_v3 (by decide)).trans <|
    (show W5 m ρ c (Proc.devRef .tc main_v3) = W4 m ρ c (Proc.devRef .tc main_v3) by hkeep)

/-- The destination list is untouched from where it is built up to the first layer's aggregation. -/
theorem keep_v6_4_1 (c : Dev nD) :
    W4 m ρ c (Proc.devRef .tc main_v6) = W1 m ρ c (Proc.devRef .tc main_v6) :=
  (W4_of_ne m ρ c main_v6 (by decide)).trans <|
    (show W3 m ρ c (Proc.devRef .tc main_v6) = W2 m ρ c (Proc.devRef .tc main_v6) by hkeep).trans <|
    (show W2 m ρ c (Proc.devRef .tc main_v6) = W1 m ρ c (Proc.devRef .tc main_v6) by hkeep)

/-- The destination list is untouched between the two layers' aggregations. -/
theorem keep_v6_7_4 (c : Dev nD) :
    W7 m ρ c (Proc.devRef .tc main_v6) = W4 m ρ c (Proc.devRef .tc main_v6) :=
  (W7_of_ne m ρ c main_v6 (by decide)).trans <|
    (W6_of_ne m ρ c main_v6 (by decide)).trans <|
    (show W5 m ρ c (Proc.devRef .tc main_v6) = W4 m ρ c (Proc.devRef .tc main_v6) by hkeep)

/-- The edge normalisation is untouched by the first region. -/
theorem keep_v31_4_3 (c : Dev nD) :
    W4 m ρ c (Proc.devRef .tc main_v31) = W3 m ρ c (Proc.devRef .tc main_v31) :=
  (W4_of_ne m ρ c main_v31 (by decide))

/-- The edge normalisation is untouched between the two layers' aggregations. -/
theorem keep_v31_7_4 (c : Dev nD) :
    W7 m ρ c (Proc.devRef .tc main_v31) = W4 m ρ c (Proc.devRef .tc main_v31) :=
  (W7_of_ne m ρ c main_v31 (by decide)).trans <|
    (W6_of_ne m ρ c main_v31 (by decide)).trans <|
    (show W5 m ρ c (Proc.devRef .tc main_v31) = W4 m ρ c (Proc.devRef .tc main_v31) by hkeep)

/-- The second layer's output is untouched by the reshape of the graph ids. -/
theorem keep_v63_10_9 (c : Dev nD) :
    W10 m ρ c (Proc.devRef .tc main_v63) = W9 m ρ c (Proc.devRef .tc main_v63) :=
  (show W10 m ρ c (Proc.devRef .tc main_v63) = W9 m ρ c (Proc.devRef .tc main_v63) by hkeep)

/-- The pooled rows are untouched by the reshape of the head's bias. -/
theorem keep_v65_12_11 (c : Dev nD) :
    W12 m ρ c (Proc.devRef .tc main_v65) = W11 m ρ c (Proc.devRef .tc main_v65) :=
  (show W12 m ρ c (Proc.devRef .tc main_v65) = W11 m ρ c (Proc.devRef .tc main_v65) by hkeep)

/-- At launch a buffer holds the launch memory. -/
theorem W0_eq (c : Dev nD) (b : Ref sig .tc) : W0 m ρ c (Proc.devRef .tc b) = m ((c : Thread nD τ).loc b) := rfl

/-! ## What each region writes -/

/-- Region 0 leaves x · W₁ in its output array. -/
theorem W4_v32 (c : Dev nD) :
    W4 m ρ c (Proc.devRef .tc main_v32)
      = (Cert.Spec.rowsMul (N := 250000) (K := 16) (C := 8) (W3 m ρ c (Proc.devRef .tc main_arg0))
          (W3 m ρ c (Proc.devRef .tc main_arg3)) : S250000x8.Idx → EReal) :=
  (W4_arr m ρ c 2).trans (Cert.KernelIdeal.RegProj.arr0 (V3 m ρ) c)

/-- Region 1 leaves bias and ReLU of the first aggregation in its output array. -/
theorem W6_v47 (c : Dev nD) :
    W6 m ρ c (Proc.devRef .tc main_v47)
      = (Cert.Spec.biasRelu (N := 250000) (C := 8) (W5 m ρ c (Proc.devRef .tc main_v45))
          (W5 m ρ c (Proc.devRef .tc main_v46)) : S250000x8.Idx → EReal) :=
  (W6_arr m ρ c 2).trans (Cert.KernelIdeal.RegBias.arr1 (V5 m ρ) c)

/-- Region 2 leaves h · W₂ in its output array. -/
theorem W7_v48 (c : Dev nD) :
    W7 m ρ c (Proc.devRef .tc main_v48)
      = (Cert.Spec.rowsMul (N := 250000) (K := 8) (C := 8) (W6 m ρ c (Proc.devRef .tc main_v47))
          (W6 m ρ c (Proc.devRef .tc main_arg5)) : S250000x8.Idx → EReal) :=
  (W7_arr m ρ c 2).trans (Cert.KernelIdeal.RegProj.arr2 (V6 m ρ) c)

/-- Region 3 leaves bias and ReLU of the second aggregation in its output array. -/
theorem W9_v63 (c : Dev nD) :
    W9 m ρ c (Proc.devRef .tc main_v63)
      = (Cert.Spec.biasRelu (N := 250000) (C := 8) (W8 m ρ c (Proc.devRef .tc main_v61))
          (W8 m ρ c (Proc.devRef .tc main_v62)) : S250000x8.Idx → EReal) :=
  (W9_arr m ρ c 2).trans (Cert.KernelIdeal.RegBias.arr3 (V8 m ρ) c)

/-- Region 4 leaves the rows pooled by graph id in its output array. -/
theorem W11_v65 (c : Dev nD) :
    W11 m ρ c (Proc.devRef .tc main_v65)
      = (Cert.Spec.poolRows (N := 250000) (C := 8) (G := 512) (W10 m ρ c (Proc.devRef .tc main_v64))
          (W10 m ρ c (Proc.devRef .tc main_v63)) : S512x8.Idx → EReal) :=
  (W11_arr m ρ c 2).trans (Cert.KernelIdeal.RegPool.arr4 (V10 m ρ) c)

/-- Region 5 leaves the logistic function of the linear head in the result array. -/
theorem W13_v67 (c : Dev nD) :
    W13 m ρ c (Proc.devRef .tc main_v67)
      = (Cert.Spec.headLogistic (G := 512) (K := 8) (W12 m ρ c (Proc.devRef .tc main_v65))
          (W12 m ρ c (Proc.devRef .tc main_arg7)) (W12 m ρ c (Proc.devRef .tc main_v66)) : S512x1.Idx → EReal) :=
  (W13_arr m ρ c 3).trans (Cert.KernelIdeal.RegHead.arr5 (V12 m ρ) c)

end Cert.KernelIdeal.Fold

end
-- ==== Proof.Net.lean ====
/-
  The whole network as ONE function of the nine argument arrays, at the ideal values.

  Two graph-convolution layers, each: rows times a weight matrix; the sparse aggregation over the edge list
  (for every edge, the source node's row scaled by the symmetric degree normalisation and added into the
  destination node's row); bias and ReLU. Then the rows of each graph summed, a linear head, the logistic function.

  The aggregation is carried as one function `agg` of the edge list and the rows: both programs apply the same host
  operations there (a row take, a product with the normalisation, an accumulation into zeros), so it is never
  opened. Its index vectors (the source and destination lists with the self loops appended) and the
  normalisation are the reference program's own stages of the edge list.
-/
import proofs.«429095_j35888746725385_4_alg».proof.Proof.Gen.KernelIdeal
import proofs.«429095_j35888746725385_4_alg».proof.Proof.RefRead
import proofs.«429095_j35888746725385_4_alg».proof.Proof.Spec

noncomputable section

namespace Cert.Net

open Idealize.ShloMosaic Idealize.ShloMosaic.ValueIdx
open Cert.ReferenceIdeal Cert.ReferenceIdeal.Gen Cert.ReferenceIdeal.ReadP

/-- The sparse aggregation of one layer: out[d, :] = ∑ over the edges (s → d) of norm(s, d) · P[s, :], the edge list
    with a self loop per node appended; in the reference program's own operations. -/
def agg (ei : IVec S2x8000000 32) (P : FVec Ideal S250000x8 .f32) : FVec Ideal S250000x8 .f32 :=
  Host.scatterAdd scatter_S250000x8_S8250000x1_S8250000x8_1_0_0_1 (val_main_v43 (F := Ideal)) (val_main_v44 (F := Ideal) ei)
    (mulf (Host.gather gather_S250000x8_S8250000x1_S8250000x8_1_0_n_n_0_1_18 P (val_main_v38 (F := Ideal) ei))
      (val_main_v41 (F := Ideal) ei))

/-- A vector [C] as one row [1, C]. -/
def rowK {C : Nat} (b : (⟨1, ![C]⟩ : Shape).Idx → EReal) : (⟨2, ![1, C]⟩ : Shape).Idx → EReal :=
  fun i => b (ix1 (n := C) (i 1))

/-- A vector of words [N] as one column [N, 1]. -/
def colK {N : Nat} (ids : IVec (⟨1, ![N]⟩ : Shape) 32) : IVec (⟨2, ![N, 1]⟩ : Shape) 32 :=
  fun i => ids (ix1 (n := N) (i 0))

theorem rowK_apply {C : Nat} (b : (⟨1, ![C]⟩ : Shape).Idx → EReal) (z : Fin 1) (c : Fin C) :
    rowK b (ix2 z c) = b (ix1 c) := rfl

theorem colK_apply {N : Nat} (ids : IVec (⟨1, ![N]⟩ : Shape) 32) (n : Fin N) (z : Fin 1) :
    colK ids (ix2 n z) = ids (ix1 n) := rfl

/-- The network: logistic (pool (layer₂ (layer₁ x)) · Wl + bl). -/
def net (x : FVec Ideal S250000x16 .f32) (ei : IVec S2x8000000 32) (batch : IVec S250000 32)
    (W1 : FVec Ideal S16x8 .f32) (b1 : FVec Ideal S8 .f32) (W2 : FVec Ideal S8x8 .f32) (b2 : FVec Ideal S8 .f32)
    (Wl : FVec Ideal S8x1 .f32) (bl : FVec Ideal S1 .f32) : FVec Ideal S512x1 .f32 :=
  Cert.Spec.headLogistic (G := 512) (K := 8)
    (Cert.Spec.poolRows (N := 250000) (C := 8) (G := 512) (colK batch)
      (Cert.Spec.biasRelu (N := 250000) (C := 8)
        (agg ei (Cert.Spec.rowsMul (N := 250000) (K := 8) (C := 8)
          (Cert.Spec.biasRelu (N := 250000) (C := 8)
            (agg ei (Cert.Spec.rowsMul (N := 250000) (K := 16) (C := 8) x W1)) (rowK b1)) W2))
        (rowK b2)))
    Wl (rowK bl)

end Cert.Net

end
-- ==== Proof.AggEq.lean ====
/-
  The aggregation's operands, spelt with the kernel program's shape and dimension records, are the reference's stages
  of the edge list; so the kernel's host operations between the regions compute `agg`.
-/
import proofs.«429095_j35888746725385_4_alg».proof.Proof.Gen.KernelIdeal
import proofs.«429095_j35888746725385_4_alg».proof.Proof.Net

set_option maxRecDepth 16384
set_option Elab.async false

noncomputable section

namespace Cert.KernelIdeal.AggEq

open Cert.KernelIdeal Cert.KernelIdeal.Gen
open Idealize.ShloMosaic

variable (x1 : IVec S2x8000000 32)

set_option maxHeartbeats 100000 in
/-- The zeros the aggregation accumulates into. -/
theorem zeros_eq :
    (broadcastInDim S250000x8 ![] bcast_S_S250000x8 (constant (F := Ideal) S_ .f32 0x00000000#32) : FVec Ideal S250000x8 .f32)
      = Cert.ReferenceIdeal.ReadP.val_main_v43 (F := Ideal) := rfl

set_option maxHeartbeats 100000 in
/-- The destination list as a column of indices. -/
theorem dstcol_eq :
    (broadcastInDim S8250000x1 ![0] bcast_S8250000_S8250000x1_0 (Cert.ReferenceIdeal.ReadP.val_main_v6 (F := Ideal) x1) : IVec S8250000x1 32)
      = Cert.ReferenceIdeal.ReadP.val_main_v44 (F := Ideal) x1 := rfl

set_option maxHeartbeats 100000 in
/-- The source list, negative entries wrapped, as a column of indices. -/
theorem srccol_eq :
    (broadcastInDim S8250000x1 ![0] bcast_S8250000_S8250000x1_0
        (select (cmpi .slt (Cert.ReferenceIdeal.ReadP.val_main_v3 (F := Ideal) x1) (broadcastInDim S8250000 ![] bcast_S_S8250000 (constantI S_ 32 0#32)))
          (addi (Cert.ReferenceIdeal.ReadP.val_main_v3 (F := Ideal) x1) (broadcastInDim S8250000 ![] bcast_S_S8250000 (constantI S_ 32 250000#32)))
          (Cert.ReferenceIdeal.ReadP.val_main_v3 (F := Ideal) x1)) : IVec S8250000x1 32)
      = Cert.ReferenceIdeal.ReadP.val_main_v38 (F := Ideal) x1 := rfl

set_option maxHeartbeats 100000 in
/-- The edge normalisation spread over the eight columns. -/
theorem norm_eq :
    (broadcastInDim S8250000x8 ![0, 1] bcast_S8250000x1_S8250000x8_0_1
        (broadcastInDim S8250000x1 ![0] bcast_S8250000_S8250000x1_0 (Cert.ReferenceIdeal.ReadP.val_main_v32 (F := Ideal) x1)) : FVec Ideal S8250000x8 .f32)
      = Cert.ReferenceIdeal.ReadP.val_main_v41 (F := Ideal) x1 := rfl

set_option maxHeartbeats 100000 in
/-- The two programs' accumulation dimension numbers are the same record. -/
theorem scatter_eq :
    scatter_S250000x8_S8250000x1_S8250000x8_1_0_0_1 = Cert.ReferenceIdeal.scatter_S250000x8_S8250000x1_S8250000x8_1_0_0_1 := rfl

set_option maxHeartbeats 100000 in
/-- The two programs' row-take dimension numbers are the same record. -/
theorem gather_eq :
    gather_S250000x8_S8250000x1_S8250000x8_1_0_n_n_0_1_18 = Cert.ReferenceIdeal.gather_S250000x8_S8250000x1_S8250000x8_1_0_n_n_0_1_18 := rfl

/-- The kernel's host operations after a projection region compute `agg` of what the region wrote. -/
theorem agg_eq (P : FVec Ideal S250000x8 .f32) :
    Host.scatterAdd scatter_S250000x8_S8250000x1_S8250000x8_1_0_0_1
        (broadcastInDim S250000x8 ![] bcast_S_S250000x8 (constant (F := Ideal) S_ .f32 0x00000000#32))
        (broadcastInDim S8250000x1 ![0] bcast_S8250000_S8250000x1_0 (Cert.ReferenceIdeal.ReadP.val_main_v6 (F := Ideal) x1))
        (mulf
          (Host.gather gather_S250000x8_S8250000x1_S8250000x8_1_0_n_n_0_1_18 P
            (broadcastInDim S8250000x1 ![0] bcast_S8250000_S8250000x1_0
              (select (cmpi .slt (Cert.ReferenceIdeal.ReadP.val_main_v3 (F := Ideal) x1) (broadcastInDim S8250000 ![] bcast_S_S8250000 (constantI S_ 32 0#32)))
                (addi (Cert.ReferenceIdeal.ReadP.val_main_v3 (F := Ideal) x1) (broadcastInDim S8250000 ![] bcast_S_S8250000 (constantI S_ 32 250000#32)))
                (Cert.ReferenceIdeal.ReadP.val_main_v3 (F := Ideal) x1))))
          (broadcastInDim S8250000x8 ![0, 1] bcast_S8250000x1_S8250000x8_0_1
            (broadcastInDim S8250000x1 ![0] bcast_S8250000_S8250000x1_0 (Cert.ReferenceIdeal.ReadP.val_main_v32 (F := Ideal) x1))))
      = Cert.Net.agg x1 P := by
  rw [zeros_eq, dstcol_eq, srccol_eq, norm_eq, scatter_eq, gather_eq]
  rfl

/-! ## The normalisation -/

set_option maxHeartbeats 100000 in
/-- The source list, negative entries wrapped, as a column of indices: the stage the normalisation takes by. -/
theorem srccol1_eq :
    (broadcastInDim S8250000x1 ![0] bcast_S8250000_S8250000x1_0
        (select (cmpi .slt (Cert.ReferenceIdeal.ReadP.val_main_v3 (F := Ideal) x1) (broadcastInDim S8250000 ![] bcast_S_S8250000 (constantI S_ 32 0#32)))
          (addi (Cert.ReferenceIdeal.ReadP.val_main_v3 (F := Ideal) x1) (broadcastInDim S8250000 ![] bcast_S_S8250000 (constantI S_ 32 250000#32)))
          (Cert.ReferenceIdeal.ReadP.val_main_v3 (F := Ideal) x1)) : IVec S8250000x1 32)
      = Cert.ReferenceIdeal.ReadP.val_main_v23 (F := Ideal) x1 := rfl

set_option maxHeartbeats 100000 in
/-- The destination list, negative entries wrapped, as a column of indices. -/
theorem dstcol1_eq :
    (broadcastInDim S8250000x1 ![0] bcast_S8250000_S8250000x1_0
        (select (cmpi .slt (Cert.ReferenceIdeal.ReadP.val_main_v6 (F := Ideal) x1) (broadcastInDim S8250000 ![] bcast_S_S8250000 (constantI S_ 32 0#32)))
          (addi (Cert.ReferenceIdeal.ReadP.val_main_v6 (F := Ideal) x1) (broadcastInDim S8250000 ![] bcast_S_S8250000 (constantI S_ 32 250000#32)))
          (Cert.ReferenceIdeal.ReadP.val_main_v6 (F := Ideal) x1)) : IVec S8250000x1 32)
      = Cert.ReferenceIdeal.ReadP.val_main_v30 (F := Ideal) x1 := rfl

set_option maxHeartbeats 100000 in
/-- The two programs' element-take dimension numbers are the same record. -/
theorem gather1_eq :
    gather_S250000_S8250000x1_S8250000_n_0_n_n_0_1_1 = Cert.ReferenceIdeal.gather_S250000_S8250000x1_S8250000_n_0_n_n_0_1_1 := rfl

set_option maxHeartbeats 100000 in
/-- The reference's per-edge normalisation is the product of the two takes of the per-node normalisation. -/
theorem v32_unfold :
    Cert.ReferenceIdeal.ReadP.val_main_v32 (F := Ideal) x1
      = mulf (F := Ideal) (φ := .f32) (Host.gather Cert.ReferenceIdeal.gather_S250000_S8250000x1_S8250000_n_0_n_n_0_1_1 (Cert.ReferenceIdeal.ReadP.val_main_v16 (F := Ideal) x1) (Cert.ReferenceIdeal.ReadP.val_main_v23 (F := Ideal) x1))
          (Host.gather Cert.ReferenceIdeal.gather_S250000_S8250000x1_S8250000_n_0_n_n_0_1_1 (Cert.ReferenceIdeal.ReadP.val_main_v16 (F := Ideal) x1) (Cert.ReferenceIdeal.ReadP.val_main_v30 (F := Ideal) x1)) := rfl

/-- The kernel's per-edge normalisation, over the reference's stages of the edge list, is the reference's. -/
theorem norm_prefix_eq :
    mulf (F := Ideal) (φ := .f32)
        (Host.gather gather_S250000_S8250000x1_S8250000_n_0_n_n_0_1_1 (Cert.ReferenceIdeal.ReadP.val_main_v16 (F := Ideal) x1)
          (broadcastInDim S8250000x1 ![0] bcast_S8250000_S8250000x1_0
            (select (cmpi .slt (Cert.ReferenceIdeal.ReadP.val_main_v3 (F := Ideal) x1) (broadcastInDim S8250000 ![] bcast_S_S8250000 (constantI S_ 32 0#32)))
              (addi (Cert.ReferenceIdeal.ReadP.val_main_v3 (F := Ideal) x1) (broadcastInDim S8250000 ![] bcast_S_S8250000 (constantI S_ 32 250000#32)))
              (Cert.ReferenceIdeal.ReadP.val_main_v3 (F := Ideal) x1))))
        (Host.gather gather_S250000_S8250000x1_S8250000_n_0_n_n_0_1_1 (Cert.ReferenceIdeal.ReadP.val_main_v16 (F := Ideal) x1)
          (broadcastInDim S8250000x1 ![0] bcast_S8250000_S8250000x1_0
            (select (cmpi .slt (Cert.ReferenceIdeal.ReadP.val_main_v6 (F := Ideal) x1) (broadcastInDim S8250000 ![] bcast_S_S8250000 (constantI S_ 32 0#32)))
              (addi (Cert.ReferenceIdeal.ReadP.val_main_v6 (F := Ideal) x1) (broadcastInDim S8250000 ![] bcast_S_S8250000 (constantI S_ 32 250000#32)))
              (Cert.ReferenceIdeal.ReadP.val_main_v6 (F := Ideal) x1))))
      = Cert.ReferenceIdeal.ReadP.val_main_v32 (F := Ideal) x1 := by
  rw [srccol1_eq, dstcol1_eq, gather1_eq, v32_unfold]

set_option maxHeartbeats 100000 in
/-- The zero the degree normalisation falls back to, spread over the nodes. -/
theorem fallback_eq :
    (broadcastInDim S250000 ![] bcast_S_S250000 (id (Cert.ReferenceIdeal.ReadP.val_main_cst_3 (F := Ideal))) : FVec Ideal S250000 .f32)
      = Cert.ReferenceIdeal.ReadP.val_main_call0_v1 (F := Ideal) := rfl

set_option maxHeartbeats 100000 in
/-- The reference's per-node normalisation is the select of the reciprocal root and the fallback. -/
theorem v16_unfold :
    Cert.ReferenceIdeal.ReadP.val_main_v16 (F := Ideal) x1
      = select (Cert.ReferenceIdeal.ReadP.val_main_v12 (F := Ideal) x1) (Cert.ReferenceIdeal.ReadP.val_main_v15 (F := Ideal) x1) (Cert.ReferenceIdeal.ReadP.val_main_call0_v1 (F := Ideal)) := rfl

end Cert.KernelIdeal.AggEq

end
-- ==== Proof.KStretch.lean ====
/-
  What each stretch of the kernel program's host operations computes, from ANY buffer contents `V` at the stretch's
  entry: stated over a variable valuation, so that no earlier stretch or region is ever unfolded.
-/
import proofs.«429095_j35888746725385_4_alg».proof.Proof.Gen.KernelIdeal.Launch
import proofs.«429095_j35888746725385_4_alg».proof.Proof.AggEq
import Idealize.ShloMosaic.Lib.StableHlo.Run

set_option maxRecDepth 16384
set_option Elab.async false

noncomputable section

namespace Cert.KernelIdeal.Stretch

open Cert.KernelIdeal Cert.KernelIdeal.Gen
open Idealize.ShloMosaic Idealize.ShloMosaic.TcCoe Idealize.SL.Sem Idealize.ShloMosaic.StableHlo

variable (x1 : IVec S2x8000000 32) (V : Valuation τ sig (Elt Ideal))

/-! ## The first stretch: the edge lists, the degrees -/

variable (h1 : V (Proc.devRef .tc main_arg1) = x1)
include h1

/-- The source list with the self loops appended. -/
theorem s0_v3 : StableHlo.after (hostOps0 (F := Ideal)) V (Proc.devRef .tc main_v3) = Cert.ReferenceIdeal.ReadP.val_main_v3 (F := Ideal) x1 := by
  after_results
  rw [h1]
  rfl

/-- The destination list with the self loops appended. -/
theorem s0_v6 : StableHlo.after (hostOps0 (F := Ideal)) V (Proc.devRef .tc main_v6) = Cert.ReferenceIdeal.ReadP.val_main_v6 (F := Ideal) x1 := by
  after_results
  rw [h1]
  rfl

/-- Which nodes have a positive in-degree (self loop counted). -/
theorem s0_v12 : StableHlo.after (hostOps0 (F := Ideal)) V (Proc.devRef .tc main_v12) = Cert.ReferenceIdeal.ReadP.val_main_v12 (F := Ideal) x1 := by
  after_results
  rw [h1]
  rfl

/-- The reciprocal square root of the in-degree floored at one. -/
theorem s0_v15 : StableHlo.after (hostOps0 (F := Ideal)) V (Proc.devRef .tc main_v15) = Cert.ReferenceIdeal.ReadP.val_main_v15 (F := Ideal) x1 := by
  after_results
  rw [h1]
  rfl

omit h1

/-- The zero the degree normalisation falls back to. -/
theorem s0_cst3 : StableHlo.after (hostOps0 (F := Ideal)) V (Proc.devRef .tc main_cst_3) = Cert.ReferenceIdeal.ReadP.val_main_cst_3 (F := Ideal) := by
  after_results
  rfl

/-! ## The per-node and per-edge normalisation -/

/-- The three operations of the select-with-fallback, from any contents at any float family: the typed-reference
    transports are identities. -/
theorem s01_v16_any {F : FTy → Type} [FloatOps F] (U : Valuation τ sig (Elt F)) :
    StableHlo.after (hostOps0_1 (F := F)) U (Proc.devRef .tc main_v16)
      = (select (U (Proc.devRef .tc main_v12)) (U (Proc.devRef .tc main_v15))
          (broadcastInDim S250000 ![] bcast_S_S250000 (id (U (Proc.devRef .tc main_cst_3)))) : FVec F S250000 .f32) := by
  after_results_simp
  rfl

/-- deg^(-1/2) where the degree is positive, else zero. -/
theorem s01_v16 (h12 : V (Proc.devRef .tc main_v12) = Cert.ReferenceIdeal.ReadP.val_main_v12 (F := Ideal) x1)
    (h15 : V (Proc.devRef .tc main_v15) = Cert.ReferenceIdeal.ReadP.val_main_v15 (F := Ideal) x1)
    (hc3 : V (Proc.devRef .tc main_cst_3) = Cert.ReferenceIdeal.ReadP.val_main_cst_3 (F := Ideal)) :
    StableHlo.after (hostOps0_1 (F := Ideal)) V (Proc.devRef .tc main_v16) = Cert.ReferenceIdeal.ReadP.val_main_v16 (F := Ideal) x1 := by
  rw [s01_v16_any V, h12, h15, hc3, Cert.KernelIdeal.AggEq.fallback_eq]
  exact (Cert.KernelIdeal.AggEq.v16_unfold x1).symm

/-- norm(s, d) = dis[s] · dis[d] along the edge list. -/
theorem s02_v31 (h3 : V (Proc.devRef .tc main_v3) = Cert.ReferenceIdeal.ReadP.val_main_v3 (F := Ideal) x1)
    (h6 : V (Proc.devRef .tc main_v6) = Cert.ReferenceIdeal.ReadP.val_main_v6 (F := Ideal) x1)
    (h16 : V (Proc.devRef .tc main_v16) = Cert.ReferenceIdeal.ReadP.val_main_v16 (F := Ideal) x1) :
    StableHlo.after (hostOps0_2 (F := Ideal)) V (Proc.devRef .tc main_v31) = Cert.ReferenceIdeal.ReadP.val_main_v32 (F := Ideal) x1 := by
  after_results_simp
  rw [h3, h6, h16]
  exact Cert.KernelIdeal.AggEq.norm_prefix_eq x1

/-! ## The aggregations and the reshapes -/

/-- After the first projection: the aggregation over the edges of what the region wrote. -/
theorem s1_v45 (h3 : V (Proc.devRef .tc main_v3) = Cert.ReferenceIdeal.ReadP.val_main_v3 (F := Ideal) x1)
    (h6 : V (Proc.devRef .tc main_v6) = Cert.ReferenceIdeal.ReadP.val_main_v6 (F := Ideal) x1)
    (h31 : V (Proc.devRef .tc main_v31) = Cert.ReferenceIdeal.ReadP.val_main_v32 (F := Ideal) x1) :
    StableHlo.after (hostOps1 (F := Ideal)) V (Proc.devRef .tc main_v45) = Cert.Net.agg x1 (V (Proc.devRef .tc main_v32)) := by
  after_results_simp
  rw [h3, h6, h31]
  exact Cert.KernelIdeal.AggEq.agg_eq x1 _

/-- After the second projection: the aggregation over the edges of what the region wrote. -/
theorem s3_v61 (h3 : V (Proc.devRef .tc main_v3) = Cert.ReferenceIdeal.ReadP.val_main_v3 (F := Ideal) x1)
    (h6 : V (Proc.devRef .tc main_v6) = Cert.ReferenceIdeal.ReadP.val_main_v6 (F := Ideal) x1)
    (h31 : V (Proc.devRef .tc main_v31) = Cert.ReferenceIdeal.ReadP.val_main_v32 (F := Ideal) x1) :
    StableHlo.after (hostOps3 (F := Ideal)) V (Proc.devRef .tc main_v61) = Cert.Net.agg x1 (V (Proc.devRef .tc main_v48)) := by
  after_results_simp
  rw [h3, h6, h31]
  exact Cert.KernelIdeal.AggEq.agg_eq x1 _

/-- The first bias reshaped to one row. -/
theorem s1_v46 : StableHlo.after (hostOps1 (F := Ideal)) V (Proc.devRef .tc main_v46)
    = shapeCast S1x8 (V (Proc.devRef .tc main_arg4)) shapeCasts_S8_S1x8 := by
  after_results
  rfl

/-- The second bias reshaped to one row. -/
theorem s3_v62 : StableHlo.after (hostOps3 (F := Ideal)) V (Proc.devRef .tc main_v62)
    = shapeCast S1x8 (V (Proc.devRef .tc main_arg6)) shapeCasts_S8_S1x8 := by
  after_results
  rfl

/-- The graph ids reshaped to one column. -/
theorem s4_v64 : StableHlo.after (hostOps4 (F := Ideal)) V (Proc.devRef .tc main_v64)
    = shapeCast S250000x1 (V (Proc.devRef .tc main_arg2)) shapeCasts_S250000_S250000x1 := by
  after_results
  rfl

/-- The head's bias reshaped to one row. -/
theorem s5_v66 : StableHlo.after (hostOps5 (F := Ideal)) V (Proc.devRef .tc main_v66)
    = shapeCast S1x1 (V (Proc.devRef .tc main_arg8)) shapeCasts_S1_S1x1 := by
  after_results
  rfl

end Cert.KernelIdeal.Stretch

end
-- ==== Proof.KHost.lean ====
/-
  What the kernel program's host operations compute, at the ideal values, boundary by boundary.

  Before the first region they build, from the edge list, the source and destination lists with the self loops appended
  and the edge normalisation: the same operations the reference program applies, so their values are the reference's
  own stages of the edge list. Between the regions they aggregate over the edges (`agg`) and reshape a bias to one row,
  the graph ids to one column. Each fact is a stretch's reading (over any entry contents) taken at the boundary's contents.
-/
import proofs.«429095_j35888746725385_4_alg».proof.Proof.KFold
import proofs.«429095_j35888746725385_4_alg».proof.Proof.KStretch
import Idealize.ShloMosaic.Lib.ValueLayout

set_option maxRecDepth 16384
set_option Elab.async false

noncomputable section

namespace Cert.KernelIdeal.KHost

open Cert.KernelIdeal Cert.KernelIdeal.Gen Cert.KernelIdeal.Fold
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! ## Reshapes read at an index -/

/-- A vector [C] reshaped to [1, C] is the vector as one row. -/
theorem shapeCast_row {C : Nat} (x : (⟨1, ![C]⟩ : Shape).Idx → EReal)
    (h : (⟨1, ![C]⟩ : Shape).ShapeCasts ⟨2, ![1, C]⟩) : shapeCast ⟨2, ![1, C]⟩ x h = Cert.Net.rowK x := by
  funext i
  obtain ⟨u, q, rfl⟩ : ∃ (u : Fin 1) (q : Fin C), i = ix2 u q := ⟨i 0, i 1, eq_ix2 i⟩
  rw [shapeCast_a_1a_apply, Cert.Net.rowK_apply]

/-- A vector of words [N] reshaped to [N, 1] is the vector as one column. -/
theorem shapeCast_col {N : Nat} (x : IVec (⟨1, ![N]⟩ : Shape) 32)
    (h : (⟨1, ![N]⟩ : Shape).ShapeCasts ⟨2, ![N, 1]⟩) : shapeCast ⟨2, ![N, 1]⟩ x h = Cert.Net.colK x := by
  funext i
  obtain ⟨n, z, rfl⟩ : ∃ (n : Fin N) (z : Fin 1), i = ix2 n z := ⟨i 0, i 1, eq_ix2 i⟩
  rw [Cert.Net.colK_apply]
  refine shapeCast_apply x h _ _ ?_
  have hz : z.val = 0 := by omega
  rw [Shape.rowMajor_val_two, Shape.rowMajor_val_one]
  show n.val = n.val * 1 + z.val
  omega

/-! ## The edge lists and the normalisation -/

theorem W1_v3 (c : Dev nD) : W1 m ρ c (Proc.devRef .tc main_v3) = Cert.ReferenceIdeal.ReadP.val_main_v3 (F := Ideal) (m ((c : Thread nD τ).loc main_arg1)) :=
  Cert.KernelIdeal.Stretch.s0_v3 (m ((c : Thread nD τ).loc main_arg1)) (W0 m ρ c) rfl
theorem W1_v6 (c : Dev nD) : W1 m ρ c (Proc.devRef .tc main_v6) = Cert.ReferenceIdeal.ReadP.val_main_v6 (F := Ideal) (m ((c : Thread nD τ).loc main_arg1)) :=
  Cert.KernelIdeal.Stretch.s0_v6 (m ((c : Thread nD τ).loc main_arg1)) (W0 m ρ c) rfl
theorem W1_v12 (c : Dev nD) : W1 m ρ c (Proc.devRef .tc main_v12) = Cert.ReferenceIdeal.ReadP.val_main_v12 (F := Ideal) (m ((c : Thread nD τ).loc main_arg1)) :=
  Cert.KernelIdeal.Stretch.s0_v12 (m ((c : Thread nD τ).loc main_arg1)) (W0 m ρ c) rfl
theorem W1_v15 (c : Dev nD) : W1 m ρ c (Proc.devRef .tc main_v15) = Cert.ReferenceIdeal.ReadP.val_main_v15 (F := Ideal) (m ((c : Thread nD τ).loc main_arg1)) :=
  Cert.KernelIdeal.Stretch.s0_v15 (m ((c : Thread nD τ).loc main_arg1)) (W0 m ρ c) rfl
theorem W1_cst3 (c : Dev nD) : W1 m ρ c (Proc.devRef .tc main_cst_3) = Cert.ReferenceIdeal.ReadP.val_main_cst_3 (F := Ideal) :=
  Cert.KernelIdeal.Stretch.s0_cst3 (W0 m ρ c)

/-- The per-node normalisation: deg^(-1/2) where the degree is positive, else zero. -/
theorem W2_v16 (c : Dev nD) : W2 m ρ c (Proc.devRef .tc main_v16) = Cert.ReferenceIdeal.ReadP.val_main_v16 (F := Ideal) (m ((c : Thread nD τ).loc main_arg1)) :=
  Cert.KernelIdeal.Stretch.s01_v16 (m ((c : Thread nD τ).loc main_arg1)) (W1 m ρ c) (W1_v12 m ρ c) (W1_v15 m ρ c) (W1_cst3 m ρ c)

theorem W2_v3 (c : Dev nD) : W2 m ρ c (Proc.devRef .tc main_v3) = Cert.ReferenceIdeal.ReadP.val_main_v3 (F := Ideal) (m ((c : Thread nD τ).loc main_arg1)) :=
  (show W2 m ρ c (Proc.devRef .tc main_v3) = W1 m ρ c (Proc.devRef .tc main_v3) by hkeep).trans (W1_v3 m ρ c)
theorem W2_v6 (c : Dev nD) : W2 m ρ c (Proc.devRef .tc main_v6) = Cert.ReferenceIdeal.ReadP.val_main_v6 (F := Ideal) (m ((c : Thread nD τ).loc main_arg1)) :=
  (show W2 m ρ c (Proc.devRef .tc main_v6) = W1 m ρ c (Proc.devRef .tc main_v6) by hkeep).trans (W1_v6 m ρ c)

/-- The per-edge normalisation norm(s, d) = dis[s] · dis[d] is the reference's stage of the edge list. -/
theorem W3_v31 (c : Dev nD) : W3 m ρ c (Proc.devRef .tc main_v31) = Cert.ReferenceIdeal.ReadP.val_main_v32 (F := Ideal) (m ((c : Thread nD τ).loc main_arg1)) :=
  Cert.KernelIdeal.Stretch.s02_v31 (m ((c : Thread nD τ).loc main_arg1)) (W2 m ρ c) (W2_v3 m ρ c) (W2_v6 m ρ c) (W2_v16 m ρ c)

theorem W4_v3 (c : Dev nD) : W4 m ρ c (Proc.devRef .tc main_v3) = Cert.ReferenceIdeal.ReadP.val_main_v3 (F := Ideal) (m ((c : Thread nD τ).loc main_arg1)) :=
  (keep_v3_4_1 m ρ c).trans (W1_v3 m ρ c)
theorem W4_v6 (c : Dev nD) : W4 m ρ c (Proc.devRef .tc main_v6) = Cert.ReferenceIdeal.ReadP.val_main_v6 (F := Ideal) (m ((c : Thread nD τ).loc main_arg1)) :=
  (keep_v6_4_1 m ρ c).trans (W1_v6 m ρ c)
theorem W4_v31 (c : Dev nD) : W4 m ρ c (Proc.devRef .tc main_v31) = Cert.ReferenceIdeal.ReadP.val_main_v32 (F := Ideal) (m ((c : Thread nD τ).loc main_arg1)) :=
  (keep_v31_4_3 m ρ c).trans (W3_v31 m ρ c)
theorem W7_v3 (c : Dev nD) : W7 m ρ c (Proc.devRef .tc main_v3) = Cert.ReferenceIdeal.ReadP.val_main_v3 (F := Ideal) (m ((c : Thread nD τ).loc main_arg1)) :=
  (keep_v3_7_4 m ρ c).trans (W4_v3 m ρ c)
theorem W7_v6 (c : Dev nD) : W7 m ρ c (Proc.devRef .tc main_v6) = Cert.ReferenceIdeal.ReadP.val_main_v6 (F := Ideal) (m ((c : Thread nD τ).loc main_arg1)) :=
  (keep_v6_7_4 m ρ c).trans (W4_v6 m ρ c)
theorem W7_v31 (c : Dev nD) : W7 m ρ c (Proc.devRef .tc main_v31) = Cert.ReferenceIdeal.ReadP.val_main_v32 (F := Ideal) (m ((c : Thread nD τ).loc main_arg1)) :=
  (keep_v31_7_4 m ρ c).trans (W4_v31 m ρ c)

/-! ## The host operations between the regions -/

/-- After the first region: the aggregation over the edges of what the region wrote. -/
theorem W5_v45 (c : Dev nD) : W5 m ρ c (Proc.devRef .tc main_v45) = Cert.Net.agg (m ((c : Thread nD τ).loc main_arg1)) (W4 m ρ c (Proc.devRef .tc main_v32)) :=
  Cert.KernelIdeal.Stretch.s1_v45 (m ((c : Thread nD τ).loc main_arg1)) (W4 m ρ c) (W4_v3 m ρ c) (W4_v6 m ρ c) (W4_v31 m ρ c)

/-- The first bias as one row. -/
theorem W5_v46 (c : Dev nD) : W5 m ρ c (Proc.devRef .tc main_v46) = Cert.Net.rowK (m ((c : Thread nD τ).loc main_arg4)) :=
  (Cert.KernelIdeal.Stretch.s1_v46 (W4 m ρ c)).trans
    ((congrArg (fun x => shapeCast S1x8 x shapeCasts_S8_S1x8) (keep_arg4_4_0 m ρ c)).trans (shapeCast_row _ _))

/-- After the third region: the aggregation over the edges of what the region wrote. -/
theorem W8_v61 (c : Dev nD) : W8 m ρ c (Proc.devRef .tc main_v61) = Cert.Net.agg (m ((c : Thread nD τ).loc main_arg1)) (W7 m ρ c (Proc.devRef .tc main_v48)) :=
  Cert.KernelIdeal.Stretch.s3_v61 (m ((c : Thread nD τ).loc main_arg1)) (W7 m ρ c) (W7_v3 m ρ c) (W7_v6 m ρ c) (W7_v31 m ρ c)

/-- The second bias as one row. -/
theorem W8_v62 (c : Dev nD) : W8 m ρ c (Proc.devRef .tc main_v62) = Cert.Net.rowK (m ((c : Thread nD τ).loc main_arg6)) :=
  (Cert.KernelIdeal.Stretch.s3_v62 (W7 m ρ c)).trans
    ((congrArg (fun x => shapeCast S1x8 x shapeCasts_S8_S1x8) (keep_arg6_7_0 m ρ c)).trans (shapeCast_row _ _))

/-- The graph ids as one column. -/
theorem W10_v64 (c : Dev nD) : W10 m ρ c (Proc.devRef .tc main_v64) = Cert.Net.colK (m ((c : Thread nD τ).loc main_arg2)) :=
  (Cert.KernelIdeal.Stretch.s4_v64 (W9 m ρ c)).trans
    ((congrArg (fun x => shapeCast S250000x1 x shapeCasts_S250000_S250000x1) (keep_arg2_9_0 m ρ c)).trans (shapeCast_col _ _))

/-- The head's bias as one row. -/
theorem W12_v66 (c : Dev nD) : W12 m ρ c (Proc.devRef .tc main_v66) = Cert.Net.rowK (m ((c : Thread nD τ).loc main_arg8)) :=
  (Cert.KernelIdeal.Stretch.s5_v66 (W11 m ρ c)).trans
    ((congrArg (fun x => shapeCast S1x1 x shapeCasts_S1_S1x1) (keep_arg8_11_0 m ρ c)).trans (shapeCast_row _ _))

end Cert.KernelIdeal.KHost

end
-- ==== Proof.KValue.lean ====
/-
  The kernel program's result as the network function of its nine arguments: with what each region writes and what the
  host operations between the regions compute, the buffers are, layer by layer, the network's intermediate arrays, and
  the result buffer is the network function.
-/
import proofs.«429095_j35888746725385_4_alg».proof.Proof.KHost

set_option maxRecDepth 16384
set_option Elab.async false

noncomputable section

namespace Cert.KernelIdeal.KValue

open Cert.KernelIdeal Cert.KernelIdeal.Gen Cert.KernelIdeal.Fold Cert.KernelIdeal.KHost
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! ## Layer by layer -/

/-- x · W₁. -/
abbrev p1 (c : Dev nD) : S250000x8.Idx → EReal :=
  Cert.Spec.rowsMul (N := 250000) (K := 16) (C := 8) (m ((c : Thread nD τ).loc main_arg0)) (m ((c : Thread nD τ).loc main_arg3))
/-- The first layer's output. -/
abbrev h1 (c : Dev nD) : S250000x8.Idx → EReal :=
  Cert.Spec.biasRelu (N := 250000) (C := 8) (Cert.Net.agg (m ((c : Thread nD τ).loc main_arg1)) (p1 m c)) (Cert.Net.rowK (m ((c : Thread nD τ).loc main_arg4)))
/-- h₁ · W₂. -/
abbrev p2 (c : Dev nD) : S250000x8.Idx → EReal :=
  Cert.Spec.rowsMul (N := 250000) (K := 8) (C := 8) (h1 m c) (m ((c : Thread nD τ).loc main_arg5))
/-- The second layer's output. -/
abbrev h2 (c : Dev nD) : S250000x8.Idx → EReal :=
  Cert.Spec.biasRelu (N := 250000) (C := 8) (Cert.Net.agg (m ((c : Thread nD τ).loc main_arg1)) (p2 m c)) (Cert.Net.rowK (m ((c : Thread nD τ).loc main_arg6)))
/-- The rows pooled by graph. -/
abbrev pooled (c : Dev nD) : S512x8.Idx → EReal :=
  Cert.Spec.poolRows (N := 250000) (C := 8) (G := 512) (Cert.Net.colK (m ((c : Thread nD τ).loc main_arg2))) (h2 m c)

theorem V4_v32 (c : Dev nD) : W4 m ρ c (Proc.devRef .tc main_v32) = p1 m c := by
  rw [W4_v32, keep_arg0_3_0, keep_arg3_3_0]

theorem V6_v47 (c : Dev nD) : W6 m ρ c (Proc.devRef .tc main_v47) = h1 m c := by
  rw [W6_v47, W5_v45, W5_v46, V4_v32]

theorem V7_v48 (c : Dev nD) : W7 m ρ c (Proc.devRef .tc main_v48) = p2 m c := by
  rw [W7_v48, V6_v47, keep_arg5_6_0]

theorem V9_v63 (c : Dev nD) : W9 m ρ c (Proc.devRef .tc main_v63) = h2 m c := by
  rw [W9_v63, W8_v61, W8_v62, V7_v48]

theorem V11_v65 (c : Dev nD) : W11 m ρ c (Proc.devRef .tc main_v65) = pooled m c := by
  rw [W11_v65, W10_v64, keep_v63_10_9, V9_v63]

/-- THE KERNEL'S RESULT: the last boundary's contents at the result buffer are the network function of the launch
    contents of the nine arguments. -/
theorem kernel_value (c : Dev nD) :
    W13 m ρ c (Proc.devRef .tc main_v67)
      = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W13_v67, keep_v65_12_11, V11_v65, keep_arg7_12_0, W12_v66]
  rfl

end Cert.KernelIdeal.KValue

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.RefValue.lean ====
/-
  The reference program's result as the network function of its nine arguments (at the ideal values).

  Stage by stage through the reference's operations: a host matrix product is the rows-times-matrix sum; the
  aggregation over the edges is carried whole (the function `agg`); add of the broadcast bias then maximum with zero is
  bias and ReLU; the accumulation into zeros by graph id is the pooled sum; and
  1 / (1 + exp (−(p · Wl + bl))) is the logistic function of the linear head.
-/
import proofs.«429095_j35888746725385_4_alg».proof.Proof.RefRead
import proofs.«429095_j35888746725385_4_alg».proof.Proof.Spec
import proofs.«429095_j35888746725385_4_alg».proof.Proof.Net
import proofs.«429095_j35888746725385_4_alg».proof.Proof.LibRows
import Idealize.ShloMosaic.PureOps.Ideal.Laws
import Idealize.ShloMosaic.PureOps.IdealRules
import Idealize.ShloMosaic.Lib.ValueIdx

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.ValueIdx
open Cert.Net Cert.Spec

variable (x0 : (⟨S250000x16, .f32⟩ : BufTy).Contents (Elt Ideal)) (x1 : (⟨S2x8000000, .i32⟩ : BufTy).Contents (Elt Ideal)) (x2 : (⟨S250000, .i32⟩ : BufTy).Contents (Elt Ideal))
  (x3 : (⟨S16x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal))
  (x7 : (⟨S8x1, .f32⟩ : BufTy).Contents (Elt Ideal)) (x8 : (⟨S1, .f32⟩ : BufTy).Contents (Elt Ideal))

/-! ## The first layer -/

/-- x · W₁ on the host is the rows-times-matrix sum. -/
theorem dot17 : val_main_v17 (F := Ideal) x0 x3 = rowsMul (N := 250000) (K := 16) (C := 8) x0 x3 := by
  funext i
  obtain ⟨r, c, rfl⟩ : ∃ (r : Fin 250000) (c : Fin 8), i = ix2 r c := ⟨i 0, i 1, eq_ix2 i⟩
  rw [val_main_v17_apply, rowsMul_apply]
  refine Finset.sum_congr rfl fun k _ => ?_
  have e1 : lidx_main_v17 (ix2 r c) k = ix2 r k :=
    funext fun a => Fin.ext (by match a with | ⟨0, _⟩ => rfl | ⟨1, _⟩ => rfl)
  have e2 : ridx_main_v17 (ix2 r c) k = ix2 k c :=
    funext fun a => Fin.ext (by match a with | ⟨0, _⟩ => rfl | ⟨1, _⟩ => rfl)
  rw [e1, e2]

/-- The first aggregation is `agg` of the first product. -/
theorem agg45 : val_main_v45 (F := Ideal) x0 x1 x3 = agg x1 (val_main_v17 (F := Ideal) x0 x3) := rfl

/-- The first layer's output: bias and ReLU of the aggregated product. -/
theorem layer1 :
    val_main_v49 (F := Ideal) x0 x1 x3 x4
      = biasRelu (N := 250000) (C := 8) (agg x1 (rowsMul (N := 250000) (K := 16) (C := 8) x0 x3)) (rowK x4) := by
  funext i
  obtain ⟨r, c, rfl⟩ : ∃ (r : Fin 250000) (c : Fin 8), i = ix2 r c := ⟨i 0, i 1, eq_ix2 i⟩
  rw [val_main_v49_apply, val_main_v48_apply, val_main_v47_apply, val_main_v46_apply, val_main_call1_v0_apply,
    val_main_call1_cst_apply, biasRelu_apply, rowK_apply]
  have e : idx_main_v46 (idx_main_v47 (ix2 r c)) = ix1 c :=
    funext fun a => Fin.ext (by match a with | ⟨0, _⟩ => rfl)
  rw [e, agg45, dot17]
  rfl

/-! ## The second layer -/

/-- h · W₂ on the host is the rows-times-matrix sum. -/
theorem dot50 :
    val_main_v50 (F := Ideal) x0 x1 x3 x4 x5
      = rowsMul (N := 250000) (K := 8) (C := 8) (val_main_v49 (F := Ideal) x0 x1 x3 x4) x5 := by
  funext i
  obtain ⟨r, c, rfl⟩ : ∃ (r : Fin 250000) (c : Fin 8), i = ix2 r c := ⟨i 0, i 1, eq_ix2 i⟩
  rw [val_main_v50_apply, rowsMul_apply]
  refine Finset.sum_congr rfl fun k _ => ?_
  have e1 : lidx_main_v50 (ix2 r c) k = ix2 r k :=
    funext fun a => Fin.ext (by match a with | ⟨0, _⟩ => rfl | ⟨1, _⟩ => rfl)
  have e2 : ridx_main_v50 (ix2 r c) k = ix2 k c :=
    funext fun a => Fin.ext (by match a with | ⟨0, _⟩ => rfl | ⟨1, _⟩ => rfl)
  rw [e1, e2]

/-- The second aggregation is `agg` of the second product: the same index lists and normalisation, computed again
    from the edge list by the same operations. -/
theorem agg78 :
    val_main_v78 (F := Ideal) x0 x1 x3 x4 x5 = agg x1 (val_main_v50 (F := Ideal) x0 x1 x3 x4 x5) := rfl

/-- The second layer's output: bias and ReLU of the aggregated product. -/
theorem layer2 :
    val_main_v82 (F := Ideal) x0 x1 x3 x4 x5 x6
      = biasRelu (N := 250000) (C := 8)
          (agg x1 (rowsMul (N := 250000) (K := 8) (C := 8) (val_main_v49 (F := Ideal) x0 x1 x3 x4) x5)) (rowK x6) := by
  funext i
  obtain ⟨r, c, rfl⟩ : ∃ (r : Fin 250000) (c : Fin 8), i = ix2 r c := ⟨i 0, i 1, eq_ix2 i⟩
  rw [val_main_v82_apply, val_main_v81_apply, val_main_v80_apply, val_main_v79_apply, val_main_call2_v0_apply,
    val_main_call2_cst_apply, biasRelu_apply, rowK_apply]
  have e : idx_main_v79 (idx_main_v80 (ix2 r c)) = ix1 c :=
    funext fun a => Fin.ext (by match a with | ⟨0, _⟩ => rfl)
  rw [e, agg78, dot50]
  rfl

/-! ## Pooling and the head -/

/-- The accumulation into zeros by graph id is the pooled sum. -/
theorem pool :
    val_main_v85 (F := Ideal) x0 x1 x2 x3 x4 x5 x6
      = poolRows (N := 250000) (C := 8) (G := 512) (colK x2) (val_main_v82 (F := Ideal) x0 x1 x3 x4 x5 x6) := by
  funext i
  obtain ⟨g, c, rfl⟩ : ∃ (g : Fin 512) (c : Fin 8), i = ix2 g c := ⟨i 0, i 1, eq_ix2 i⟩
  unfold val_main_v85
  refine (Cert.Lib.Rows.hostScatterAdd_rows_apply scatter_S512x8_S250000x1_S250000x8_1_0_0_1_wf
    (val_main_v83 (F := Ideal)) (val_main_v84 (F := Ideal) x2) (val_main_v82 (F := Ideal) x0 x1 x3 x4 x5 x6) g c).trans ?_
  rw [poolRows_apply, val_main_v83_apply, val_main_cst_17_apply]
  show Ideal.ofBits .f32 0x00000000#32 + _ = _
  rw [Ideal.ofBits_zero_f32, zero_add]
  refine Finset.sum_congr rfl fun k _ => ?_
  have e : idx_main_v84 (ix2 k (0 : Fin 1)) = ix1 k :=
    funext fun a => Fin.ext (by match a with | ⟨0, _⟩ => rfl)
  rw [val_main_v84_apply, colK_apply, e]

/-- 1 / (1 + exp (−(p · Wl + bl))) is the logistic function of the linear head. -/
theorem head :
    val_main_v95 (F := Ideal) x0 x1 x2 x3 x4 x5 x6 x7 x8
      = headLogistic (G := 512) (K := 8) (val_main_v85 (F := Ideal) x0 x1 x2 x3 x4 x5 x6) x7 (rowK x8) := by
  funext i
  obtain ⟨g, z, rfl⟩ : ∃ (g : Fin 512) (z : Fin 1), i = ix2 g z := ⟨i 0, i 1, eq_ix2 i⟩
  obtain rfl : z = 0 := Subsingleton.elim _ _
  rw [val_main_v95_apply, val_main_v94_apply, val_main_cst_19_apply, val_main_v93_apply, val_main_v92_apply,
    val_main_cst_18_apply, val_main_v91_apply, val_main_v90_apply, val_main_v89_apply, val_main_v86_apply,
    val_main_v88_apply, val_main_v87_apply, headLogistic_apply, rowK_apply]
  have e : idx_main_v87 (idx_main_v88 (ix2 g (0 : Fin 1))) = ix1 (0 : Fin 1) :=
    funext fun a => Fin.ext (by match a with | ⟨0, _⟩ => rfl)
  have e1 : ∀ k : Fin 8, lidx_main_v86 (ix2 g (0 : Fin 1)) k = ix2 g k := fun k =>
    funext fun a => Fin.ext (by match a with | ⟨0, _⟩ => rfl | ⟨1, _⟩ => rfl)
  have e2 : ∀ k : Fin 8, ridx_main_v86 (ix2 g (0 : Fin 1)) k = ix2 k (0 : Fin 1) := fun k =>
    funext fun a => Fin.ext (by match a with | ⟨0, _⟩ => rfl | ⟨1, _⟩ => rfl)
  generalize val_main_v85 (F := Ideal) x0 x1 x2 x3 x4 x5 x6 = P
  simp only [e, e1, e2]
  show Ideal.div (Ideal.ofBits .f32 0x3F800000#32) (Ideal.ofBits .f32 0x3F800000#32 + Ideal.exp (-(_ + _))) = _
  have h1 : Ideal.ofBits .f32 0x3F800000#32 = 1 := IdealRules.sign_bit.ideal_onePat .f32
  rw [h1]
  unfold Ideal.logistic
  rfl

/-! ## The result -/

/-- The reference's result stage is the network function of its arguments. -/
theorem stage_eq_net :
    val_main_v95 (F := Ideal) x0 x1 x2 x3 x4 x5 x6 x7 x8 = net x0 x1 x2 x3 x4 x5 x6 x7 x8 := by
  rw [head, pool, layer2, layer1]
  rfl

end Cert.ReferenceIdeal.RefValue

end
-- ==== Proof.lean ====
/-
  Two graph-convolution layers, pooling by graph and a logistic head: the kernel's six tiled regions against the plain
  host program, over the extended reals.

  Both programs apply the same host operations to the edge list (degrees, normalisation, the take of source rows and
  the accumulation into destination rows); they differ only where the kernel tiles: a block of rows times a weight
  matrix against one host product (the same sums), bias and ReLU block by block (the same entries), a one-hot
  matrix product accumulated over 125 blocks against an accumulation by graph id (a row counts for graph g exactly when
  its id is g on both sides, ids outside [0, 512) for neither; 0 · x = 0 and 1 · x = x hold for every extended real, so
  no finiteness is used), and the logistic function against its expansion 1 / (1 + exp (−x)).
  So both results are one function of the nine arguments, `Cert.Net.net`: the kernel's by reading its run boundary by
  boundary (Proof/KValue.lean over Proof/KFold.lean and the four region modules), the reference's by reading its
  stages (Proof/RefValue.lean).
  The three frames are the generated frame certificates and the reference's run with the result dropped; the ideal pass
  rewrote nothing, so `preserves` is trivial.
-/
import proofs.«429095_j35888746725385_4_alg».proof.Defs
import proofs.«429095_j35888746725385_4_alg».proof.Proof.Gen.Kernel
import proofs.«429095_j35888746725385_4_alg».proof.Proof.Gen.Kernel.Skeleton
import proofs.«429095_j35888746725385_4_alg».proof.Proof.Gen.Kernel.Launch
import proofs.«429095_j35888746725385_4_alg».proof.Proof.Gen.Kernel.Points
import proofs.«429095_j35888746725385_4_alg».proof.Proof.Gen.Kernel.Frame
import proofs.«429095_j35888746725385_4_alg».proof.Proof.Gen.KernelIdeal
import proofs.«429095_j35888746725385_4_alg».proof.Proof.Gen.KernelIdeal.Skeleton
import proofs.«429095_j35888746725385_4_alg».proof.Proof.Gen.KernelIdeal.Launch
import proofs.«429095_j35888746725385_4_alg».proof.Proof.Gen.KernelIdeal.Points
import proofs.«429095_j35888746725385_4_alg».proof.Proof.Gen.KernelIdeal.Frame
import proofs.«429095_j35888746725385_4_alg».proof.Proof.Gen.ReferenceIdeal
import proofs.«429095_j35888746725385_4_alg».proof.Proof.Gen.Pre_finite_inputs
import proofs.«429095_j35888746725385_4_alg».proof.Proof.KernelRun
import proofs.«429095_j35888746725385_4_alg».proof.Proof.KValue
import proofs.«429095_j35888746725385_4_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end with the network function of the (agreeing) arguments in their result buffers. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.kernel_value m ρ c), (h c).2⟩)
      (Cert.KernelIdeal.RunValue.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v95_eq, Cert.ReferenceIdeal.RefValue.stage_eq_net,
      (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
